-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S16x4096 : Shape := ⟨2, ![16, 4096]⟩
abbrev S32768 : Shape := ⟨1, ![32768]⟩
abbrev S16 : Shape := ⟨1, ![16]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S32768 : S_.BroadcastsInDim S32768 (![] : Fin 0 → Fin S32768.rank)
  reducesTo_S32768_S_d0 : S32768.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg3 : IVec S16 32) (main_arg4 : IVec S16 32) (main_v13 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v13 main_v16
  let main_c_6 : IVec S_ 32 := constantI S_ 32 8192#32
  let main_v18 : IVec S16 32 := broadcastInDim S16 ![] bcast_S_S16 main_c_6
  let main_v19 : IVec S16 1 := cmpi .slt main_arg3 main_v18
  let main_c_7 : IVec S_ 1 := constantI S_ 1 1#1
  let main_v20 : IVec S_ 1 := (fun x v => Host.reduce IntOp.andi x v reducesTo_S16_S_d0 h_S_) main_v19 main_c_7
  let main_v21 : IVec S_ 1 := andi main_v17 main_v20
  let main_c_8 : IVec S_ 32 := constantI S_ 32 4096#32
  let main_v22 : IVec S16 32 := broadcastInDim S16 ![] bcast_S_S16 main_c_8
  let main_v23 : IVec S16 1 := cmpi .sle main_arg4 main_v22
  let main_c_9 : IVec S_ 1 := constantI S_ 1 1#1
  let main_v24 : IVec S_ 1 := (fun x v => Host.reduce IntOp.andi x v reducesTo_S16_S_d0 h_S_) main_v23 main_c_9
  let main_v25 : IVec S_ 1 := andi main_v21 main_v24
  main_v25

def fn {F : FTy → Type} [FloatOps F] (main_arg0 : FVec F S8192x8192 .f32) (main_arg1 : FVec F S16x4096 .f32) (main_arg2 : FVec F S32768 .f32) (main_arg3 : IVec S16 32) (main_arg4 : IVec S16 32) (main_arg5 : IVec S16 32) (main_arg6 : IVec S16 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  let main_c_4 : IVec S_ 32 := constantI S_ 32 0#32
  let main_v14 : IVec S16 32 := broadcastInDim S16 ![] bcast_S_S16 main_c_4
  let main_v15 : IVec S16 1 := cmpi .sge main_arg3 main_v14
  let main_c_5 : IVec S_ 1 := constantI S_ 1 1#1
  fn_part1 (F := F) main_arg3 main_arg4 main_v13 main_v15 main_c_5
-- ==== Kernel.lean ====
abbrev S8192x8192 : Shape := ⟨2, ![8192, 8192]⟩
abbrev S16x4096 : Shape := ⟨2, ![16, 4096]⟩
abbrev S32768 : Shape := ⟨1, ![32768]⟩
abbrev S16 : Shape := ⟨1, ![16]⟩
abbrev S8192 : Shape := ⟨1, ![8192]⟩
abbrev S1x8192 : Shape := ⟨2, ![1, 8192]⟩
abbrev S16x1 : Shape := ⟨2, ![16, 1]⟩
abbrev S_ : Shape := ⟨0, ![]⟩
abbrev S16x8192 : Shape := ⟨2, ![16, 8192]⟩
abbrev S16x8192x1 : Shape := ⟨3, ![16, 8192, 1]⟩
abbrev S8192x1x8192 : Shape := ⟨3, ![8192, 1, 8192]⟩
abbrev S16x1x8192 : Shape := ⟨3, ![16, 1, 8192]⟩
abbrev S1x1x8192 : Shape := ⟨3, ![1, 1, 8192]⟩
abbrev S1 : Shape := ⟨1, ![1]⟩

abbrev nBuf : Space → Nat
  | .hbm => 61
  | .vmem => 4
  | .smem => 1
  | _ => 0

abbrev bufTy : (tb : Table) → Fin (tcTables nBuf tb) → BufTy
  | .hbm, ⟨0, _⟩ => ⟨S8192x8192, .f32⟩
  | .hbm, ⟨1, _⟩ => ⟨S16x4096, .f32⟩
  | .hbm, ⟨2, _⟩ => ⟨S32768, .f32⟩
  | .hbm, ⟨3, _⟩ => ⟨S16, .i32⟩
  | .hbm, ⟨4, _⟩ => ⟨S16, .i32⟩
  | .hbm, ⟨5, _⟩ => ⟨S16, .i32⟩
  | .hbm, ⟨6, _⟩ => ⟨S8192, .i32⟩
  | .hbm, ⟨7, _⟩ => ⟨S1x8192, .i32⟩
  | .hbm, ⟨8, _⟩ => ⟨S16x1, .i32⟩
  | .hbm, ⟨9, _⟩ => ⟨S16x1, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16x1, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S_, .i32⟩
  | .hbm, ⟨19, _⟩ => ⟨S16, .i32⟩
  | .hbm, ⟨20, _⟩ => ⟨S16, .i32⟩
  | .hbm, ⟨21, _⟩ => ⟨S16, .i32⟩
  | .hbm, ⟨22, _⟩ => ⟨S16x1, .i32⟩
  | .hbm, ⟨23, _⟩ => ⟨S16x8192, .f32⟩
  | .hbm, ⟨24, _⟩ => ⟨S_, .i32⟩
  | .hbm, ⟨25, _⟩ => ⟨S_, .f32⟩
  | .hbm, ⟨26, _⟩ => ⟨S16x8192, .f32⟩
  | .hbm, ⟨27, _⟩ => ⟨S16x8192, .i32⟩
  | .hbm, ⟨28, _⟩ => ⟨S16x8192, .i32⟩
  | .hbm, ⟨29, _⟩ => ⟨S16x8192, .i32⟩
  | .hbm, ⟨30, _⟩ => ⟨S16x8192, .i32⟩
  | .hbm, ⟨31, _⟩ => ⟨S16x8192, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S16x8192, .i32⟩
  | .hbm, ⟨36, _⟩ => ⟨S16x8192, .i32⟩
  | .hbm, ⟨37, _⟩ => ⟨S_, .i32⟩
  | .hbm, ⟨38, _⟩ => ⟨S16x8192, .i32⟩
  | .hbm, ⟨39, _⟩ => ⟨S16x8192, .i32⟩
  | .hbm, ⟨40, _⟩ => ⟨S_, .i32⟩
  | .hbm, ⟨41, _⟩ => ⟨S16x8192, .i32⟩
  | .hbm, ⟨42, _⟩ => ⟨S16x8192, .i1⟩
  | .hbm, ⟨43, _⟩ => ⟨S_, .i32⟩
  | .hbm, ⟨44, _⟩ => ⟨S16x8192, .i32⟩
  | .hbm, ⟨45, _⟩ => ⟨S16x8192, .i32⟩
  | .hbm, ⟨46, _⟩ => ⟨S16x8192, .i32⟩
  | .hbm, ⟨47, _⟩ => ⟨S16x8192x1, .i32⟩
  | .hbm, ⟨48, _⟩ => ⟨S16x8192, .f32⟩
  | .hbm, ⟨49, _⟩ => ⟨S16x8192, .i32⟩
  | .hbm, ⟨50, _⟩ => ⟨S16x8192, .i32⟩
  | .hbm, ⟨51, _⟩ => ⟨S16x8192, .i1⟩
  | .hbm, ⟨52, _⟩ => ⟨S16x8192, .i32⟩
  | .hbm, ⟨53, _⟩ => ⟨S16x8192, .i32⟩
  | .hbm, ⟨54, _⟩ => ⟨S16x8192, .i1⟩
  | .hbm, ⟨55, _⟩ => ⟨S16x8192, .f32⟩
  | .hbm, ⟨56, _⟩ => ⟨S16x8192, .f32⟩
  | .hbm, ⟨57, _⟩ => ⟨S8192x1x8192, .f32⟩
  | .hbm, ⟨58, _⟩ => ⟨S16x1x8192, .f32⟩
  | .hbm, ⟨59, _⟩ => ⟨S8192x1x8192, .f32⟩
  | .hbm, ⟨60, _⟩ => ⟨S8192x8192, .f32⟩
  | .local _ .vmem, ⟨0, _⟩ => ⟨S1x1x8192, .f32⟩
  | .local _ .vmem, ⟨1, _⟩ => ⟨S1x1x8192, .f32⟩
  | .local _ .vmem, ⟨2, _⟩ => ⟨S1x1x8192, .f32⟩
  | .local _ .vmem, ⟨3, _⟩ => ⟨S1x1x8192, .f32⟩
  | .local _ .smem, ⟨0, _⟩ => ⟨S16, .i32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_call0_c : Ref sig .tc := ⟨.hbm, 10, rfl⟩
abbrev main_call0_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_c_3 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S8192_S1x8192_1 : S8192.BroadcastsInDim S1x8192 (![1] : Fin 1 → Fin S1x8192.rank)
  bcast_S16_S16x1_0 : S16.BroadcastsInDim S16x1 (![0] : Fin 1 → Fin S16x1.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  bcast_S_S16 : S_.BroadcastsInDim S16 (![] : Fin 0 → Fin S16.rank)
  pads_S16x4096_S16x8192_000_040960 : S16x4096.Pads (![0, 0] : Fin 2 → Nat) ![0, 4096] ![0, 0] S16x8192
  bcast_S1x8192_S16x8192_0_1 : S1x8192.BroadcastsInDim S16x8192 (![0, 1] : Fin 2 → Fin S16x8192.rank)
  bcast_S16x1_S16x8192_0_1 : S16x1.BroadcastsInDim S16x8192 (![0, 1] : Fin 2 → Fin S16x8192.rank)
  bcast_S_S16x8192 : S_.BroadcastsInDim S16x8192 (![] : Fin 0 → Fin S16x8192.rank)
  bcast_S16x8192_S16x8192x1_0_1 : S16x8192.BroadcastsInDim S16x8192x1 (![0, 1] : Fin 2 → Fin S16x8192x1.rank)
  shapeCasts_S8192x8192_S8192x1x8192 : S8192x8192.ShapeCasts S8192x1x8192
  shapeCasts_S16x8192_S16x1x8192 : S16x8192.ShapeCasts S16x1x8192
  numel1_S1 : S1.numel = 1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x1x8192 : S1x1x8192.ShapeCasts S1x1x8192
  shapeCasts_S8192x1x8192_S8192x8192 : S8192x1x8192.ShapeCasts S8192x8192
  gather_S8192x8192_S16x1_S16x8192_1_0_n_n_0_1_18192_wf : GatherDims.WF S8192x8192 S16x1 S16x8192 [1] [0] [] [0] [] 1 ![1, 8192]
  gather_S32768_S16x8192x1_S16x8192_n_0_n_n_0_2_1_wf : GatherDims.WF S32768 S16x8192x1 S16x8192 [] [0] [] [0] [] 2 ![1]
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x8192.size a ≤ S16x1x8192.size a
  hwx0_0 : ∀ i : grid0.Coords, EltTy.bits .f32 = 32 ∨ (Rect.block (s := S16x1x8192) S1x1x8192.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_2 k0_off1_inb numel1_S1 pf i = cc0_transform_2 k0_off1_inb numel1_S1 pf i'

variable [Facts₀]

def gather_S8192x8192_S16x1_S16x8192_1_0_n_n_0_1_18192 : GatherDims S8192x8192 S16x1 S16x8192 where
  offsetDims := [1]
  collapsedSliceDims := [0]
  operandBatchingDims := []
  startIndicesBatchingDims := []
  startIndexMap := [0]
  indexVectorDim := 1
  sliceSizes := ![1, 8192]
  wf := gather_S8192x8192_S16x1_S16x8192_1_0_n_n_0_1_18192_wf
def gather_S32768_S16x8192x1_S16x8192_n_0_n_n_0_2_1 : GatherDims S32768 S16x8192x1 S16x8192 where
  offsetDims := []
  collapsedSliceDims := [0]
  operandBatchingDims := []
  startIndicesBatchingDims := []
  startIndexMap := [0]
  indexVectorDim := 2
  sliceSizes := ![1]
  wf := gather_S32768_S16x8192x1_S16x8192_n_0_n_n_0_2_1_wf

abbrev spec0_0 : Pipeline.WinSpec sig grid0.rank :=
  Pipeline.WinSpec.ofSpec (Memref.whole main_v37) S1x1x8192.size reads0_0 false false 2 stage0_0 sem0_0 nbuf0_0 hstage0_0

abbrev spec0_1 : Pipeline.WinSpec sig grid0.rank :=
  Pipeline.WinSpec.ofSpec (Memref.whole main_v38) S1x1x8192.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_2 k0_off1_inb numel1_S1 pf | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | ⟨_ + 2, h⟩ => absurd h (Nat.not_lt.2 (Nat.le_add_left _ _))
def ok0 (pf : pre0.Contents (Elt F)) : Prop :=
  (∀ i : grid0.Coords, ∃ h : (∀ a, (cc0_transform_2 k0_off1_inb numel1_S1 pf i a + 1) * S1x1x8192.size a ≤ S8192x1x8192.size a), EltTy.bits .f32 = 32 ∨ (Rect.block (s := S8192x1x8192) S1x1x8192.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S8192x8192 : Shape := ⟨2, ![8192, 8192]⟩
abbrev S16x4096 : Shape := ⟨2, ![16, 4096]⟩
abbrev S32768 : Shape := ⟨1, ![32768]⟩
abbrev S16 : Shape := ⟨1, ![16]⟩
abbrev S8192 : Shape := ⟨1, ![8192]⟩
abbrev S_ : Shape := ⟨0, ![]⟩
abbrev S16x1 : Shape := ⟨2, ![16, 1]⟩
abbrev S16x8192 : Shape := ⟨2, ![16, 8192]⟩
abbrev S8192x1 : Shape := ⟨2, ![8192, 1]⟩
abbrev S1x8192 : Shape := ⟨2, ![1, 8192]⟩
abbrev S16x8192x1 : Shape := ⟨3, ![16, 8192, 1]⟩

abbrev nBuf : Space → Nat
  | .hbm => 83
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S16x4096, .f32⟩
  | .hbm, ⟨2, _⟩ => ⟨S32768, .f32⟩
  | .hbm, ⟨3, _⟩ => ⟨S16, .i32⟩
  | .hbm, ⟨4, _⟩ => ⟨S16, .i32⟩
  | .hbm, ⟨5, _⟩ => ⟨S16, .i32⟩
  | .hbm, ⟨6, _⟩ => ⟨S16, .i32⟩
  | .hbm, ⟨7, _⟩ => ⟨S8192, .i32⟩
  | .hbm, ⟨8, _⟩ => ⟨S_, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S16x1, .i32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S16x1, .i32⟩
  | .hbm, ⟨22, _⟩ => ⟨S16x8192, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S16x8192, .f32⟩
  | .hbm, ⟨40, _⟩ => ⟨S16x1, .i32⟩
  | .hbm, ⟨41, _⟩ => ⟨S1x8192, .i32⟩
  | .hbm, ⟨42, _⟩ => ⟨S16x8192, .i32⟩
  | .hbm, ⟨43, _⟩ => ⟨S16x8192, .i32⟩
  | .hbm, ⟨44, _⟩ => ⟨S16x8192, .i32⟩
  | .hbm, ⟨45, _⟩ => ⟨S16x8192, .i32⟩
  | .hbm, ⟨46, _⟩ => ⟨S16x8192, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S16x8192, .i32⟩
  | .hbm, ⟨51, _⟩ => ⟨S16x8192, .i32⟩
  | .hbm, ⟨52, _⟩ => ⟨S_, .i32⟩
  | .hbm, ⟨53, _⟩ => ⟨S16x8192, .i32⟩
  | .hbm, ⟨54, _⟩ => ⟨S16x8192, .i32⟩
  | .hbm, ⟨55, _⟩ => ⟨S_, .i32⟩
  | .hbm, ⟨56, _⟩ => ⟨S16x8192, .i32⟩
  | .hbm, ⟨57, _⟩ => ⟨S16x8192, .i1⟩
  | .hbm, ⟨58, _⟩ => ⟨S_, .i32⟩
  | .hbm, ⟨59, _⟩ => ⟨S16x8192, .i32⟩
  | .hbm, ⟨60, _⟩ => ⟨S16x8192, .i32⟩
  | .hbm, ⟨61, _⟩ => ⟨S16x8192, .i32⟩
  | .hbm, ⟨62, _⟩ => ⟨S16x8192x1, .i32⟩
  | .hbm, ⟨63, _⟩ => ⟨S16x8192, .f32⟩
  | .hbm, ⟨64, _⟩ => ⟨S1x8192, .i32⟩
  | .hbm, ⟨65, _⟩ => ⟨S16x8192, .i32⟩
  | .hbm, ⟨66, _⟩ => ⟨S16x8192, .i32⟩
  | .hbm, ⟨67, _⟩ => ⟨S16x8192, .i1⟩
  | .hbm, ⟨68, _⟩ => ⟨S1x8192, .i32⟩
  | .hbm, ⟨69, _⟩ => ⟨S16x8192, .i32⟩
  | .hbm, ⟨70, _⟩ => ⟨S16x8192, .i32⟩
  | .hbm, ⟨71, _⟩ => ⟨S16x8192, .i1⟩
  | .hbm, ⟨72, _⟩ => ⟨S16x8192, .f32⟩
  | .hbm, ⟨73, _⟩ => ⟨S16x8192, .f32⟩
  | .hbm, ⟨74, _⟩ => ⟨S_, .i32⟩
  | .hbm, ⟨75, _⟩ => ⟨S16, .i32⟩
  | .hbm, ⟨76, _⟩ => ⟨S16, .i1⟩
  | .hbm, ⟨77, _⟩ => ⟨S_, .i32⟩
  | .hbm, ⟨78, _⟩ => ⟨S16, .i32⟩
  | .hbm, ⟨79, _⟩ => ⟨S16, .i32⟩
  | .hbm, ⟨80, _⟩ => ⟨S16, .i32⟩
  | .hbm, ⟨81, _⟩ => ⟨S16x1, .i32⟩
  | .hbm, ⟨82, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_c_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v27 : Ref sig .tc := ⟨.hbm, 54, rfl⟩
abbrev main_c_7 : Ref sig .tc := ⟨.hbm, 55, rfl⟩
abbrev main_v28 : Ref sig .tc := ⟨.hbm, 56, rfl⟩
abbrev main_v29 : Ref sig .tc := ⟨.hbm, 57, rfl⟩
abbrev main_c_8 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_9 : Ref sig .tc := ⟨.hbm, 74, rfl⟩
abbrev main_v45 : Ref sig .tc := ⟨.hbm, 75, rfl⟩
abbrev main_v46 : Ref sig .tc := ⟨.hbm, 76, rfl⟩
abbrev main_c_10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  bcast_S16_S16x1_0 : S16.BroadcastsInDim S16x1 (![0] : Fin 1 → Fin S16x1.rank)
  bcast_S_S16 : S_.BroadcastsInDim S16 (![] : Fin 0 → Fin S16.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S1x8192_S16x8192_0_1 : S1x8192.BroadcastsInDim S16x8192 (![0, 1] : Fin 2 → Fin S16x8192.rank)
  bcast_S16x1_S16x8192_0_1 : S16x1.BroadcastsInDim S16x8192 (![0, 1] : Fin 2 → Fin S16x8192.rank)
  bcast_S_S16x8192 : S_.BroadcastsInDim S16x8192 (![] : Fin 0 → Fin S16x8192.rank)
  bcast_S16x8192_S16x8192x1_0_1 : S16x8192.BroadcastsInDim S16x8192x1 (![0, 1] : Fin 2 → Fin S16x8192x1.rank)
  gather_S8192x8192_S16x1_S16x8192_1_0_n_n_0_1_18192_wf : GatherDims.WF S8192x8192 S16x1 S16x8192 [1] [0] [] [0] [] 1 ![1, 8192]
  gather_S16x4096_S8192x1_S16x8192_0_1_n_n_1_1_161_wf : GatherDims.WF S16x4096 S8192x1 S16x8192 [0] [1] [] [1] [] 1 ![16, 1]
  gather_S32768_S16x8192x1_S16x8192_n_0_n_n_0_2_1_wf : GatherDims.WF S32768 S16x8192x1 S16x8192 [] [0] [] [0] [] 2 ![1]
  scatter_S8192x8192_S16x1_S16x8192_1_0_0_1_wf : ScatterDims.WF S8192x8192 S16x1 S16x8192 [1] [0] [0] 1

variable [Facts₀]

def gather_S8192x8192_S16x1_S16x8192_1_0_n_n_0_1_18192 : GatherDims S8192x8192 S16x1 S16x8192 where
  offsetDims := [1]
  collapsedSliceDims := [0]
  operandBatchingDims := []
  startIndicesBatchingDims := []
  startIndexMap := [0]
  indexVectorDim := 1
  sliceSizes := ![1, 8192]
  wf := gather_S8192x8192_S16x1_S16x8192_1_0_n_n_0_1_18192_wf
def gather_S16x4096_S8192x1_S16x8192_0_1_n_n_1_1_161 : GatherDims S16x4096 S8192x1 S16x8192 where
  offsetDims := [0]
  collapsedSliceDims := [1]
  operandBatchingDims := []
  startIndicesBatchingDims := []
  startIndexMap := [1]
  indexVectorDim := 1
  sliceSizes := ![16, 1]
  wf := gather_S16x4096_S8192x1_S16x8192_0_1_n_n_1_1_161_wf
def gather_S32768_S16x8192x1_S16x8192_n_0_n_n_0_2_1 : GatherDims S32768 S16x8192x1 S16x8192 where
  offsetDims := []
  collapsedSliceDims := [0]
  operandBatchingDims := []
  startIndicesBatchingDims := []
  startIndexMap := [0]
  indexVectorDim := 2
  sliceSizes := ![1]
  wf := gather_S32768_S16x8192x1_S16x8192_n_0_n_n_0_2_1_wf
def scatter_S8192x8192_S16x1_S16x8192_1_0_0_1 : ScatterDims S8192x8192 S16x1 S16x8192 where
  updateWindowDims := [1]
  insertedWindowDims := [0]
  scatterDimsToOperandDims := [0]
  indexVectorDim := 1
  wf := scatter_S8192x8192_S16x1_S16x8192_1_0_0_1_wf

class Facts : Prop extends Facts₀ where

variable [Facts]
-- ==== Proof.PreFacts.lean ====
/-
  What the precondition says of the integer inputs: every request's slot word is a pool row, 0 ≤ slot < 8192, and every
  prefix length is at most the padded prefix width, prefix_len ≤ 4096.
-/
import proofs.«429800_j60533269069830_1_alg».proof.Pre_finite_inputs
import proofs.«429800_j60533269069830_1_alg».proof.Proof.Gen.Pre_finite_inputs
import Idealize.ShloMosaic.Lib.ReduceAll
import Idealize.ShloMosaic.Lib.ValueIdx

noncomputable section

namespace Cert.PreFacts

open Idealize.ShloMosaic Idealize.ShloMosaic.ValueIdx Cert.Pre_finite_inputs

variable {F : FTy → Type} [FloatOps F]

/-- The scalar shape has exactly one index (there is no axis to choose a coordinate on). -/
instance subsingleton_scalar_idx : Subsingleton S_.Idx := ⟨fun _ _ => funext fun d => d.elim0⟩

/-- The precondition, all ones, gives at every request r: the slot word is in [0, 8192) read signed, and the prefix
    length is at most 4096 read signed. (The float conjuncts are not opened.) -/
theorem ints_of_pre (a0 : FVec F S8192x8192 .f32) (a1 : FVec F S16x4096 .f32) (a2 : FVec F S32768 .f32)
    (a3 a4 a5 a6 : IVec S16 32)
    (h : Cert.Pre_finite_inputs.fn (F := F) a0 a1 a2 a3 a4 a5 a6 = fun _ => 1#1) (r : Fin 16) :
    0 ≤ (a3 (ix1 r)).toInt ∧ (a3 (ix1 r)).toInt < 8192 ∧ (a4 (ix1 r)).toInt ≤ 4096 := by
  -- the claim at the one index of the scalar result: a conjunction of six "all" reductions
  have e := congrFun h ValueIdx.ix0
  dsimp only [fn, fn_part1, andi] at e
  -- split off the last three conjuncts (the integer ones); the float ones stay folded
  rw [IntOp.andi_eq_one, IntOp.andi_eq_one, IntOp.andi_eq_one] at e
  obtain ⟨⟨⟨_, h0⟩, h1⟩, h2⟩ := e
  -- an "all" that is one is one at every element: read each at request r
  have g0 := Host.reduce_andi_all _ _ _ _ _ h0 (ix1 r)
  have g1 := Host.reduce_andi_all _ _ _ _ _ h1 (ix1 r)
  have g2 := Host.reduce_andi_all _ _ _ _ _ h2 (ix1 r)
  -- each element is a signed compare of the word at r with a broadcast constant
  change IntOp.cmpi .sge (a3 (ix1 r)) (0#32) = 1#1 at g0
  change IntOp.cmpi .slt (a3 (ix1 r)) (8192#32) = 1#1 at g1
  change IntOp.cmpi .sle (a4 (ix1 r)) (4096#32) = 1#1 at g2
  rw [IntOp.cmpi_sge] at g0
  rw [IntOp.cmpi_slt] at g1
  rw [IntOp.cmpi_sle] at g2
  have c0 : (0#32 : BitVec 32).toInt = 0 := by decide
  have c1 : (8192#32 : BitVec 32).toInt = 8192 := by decide
  have c2 : (4096#32 : BitVec 32).toInt = 4096 := by decide
  rw [c0] at g0
  rw [c1] at g1
  rw [c2] at g2
  exact ⟨g0, g1, g2⟩

end Cert.PreFacts

end
-- ==== Proof.OkKernel.lean ====
/-
  The pipeline's side condition on the slot table, from the precondition. The output window's index map reads, at grid
  point i, the slot word of request i and returns the block index (slot, 0, 0) of the [8192, 1, 8192] pool in blocks of
  [1, 1, 8192]; the block lies inside the pool exactly when slot < 8192 read unsigned. The precondition gives
  0 ≤ slot < 8192 read signed, and a word that is nonnegative signed reads the same unsigned. No host operation before
  the region writes the slot table, so the table the region reads is the launch memory's.
-/
import proofs.«429800_j60533269069830_1_alg».proof.Defs
import proofs.«429800_j60533269069830_1_alg».proof.Proof.Gen.Kernel.Frame
import proofs.«429800_j60533269069830_1_alg».proof.Proof.Gen.Pre_finite_inputs
import proofs.«429800_j60533269069830_1_alg».proof.Proof.PreFacts

set_option maxRecDepth 16384

noncomputable section

namespace Cert.Kernel.OkOfPre

open Cert.Kernel Cert.Kernel.Gen
open Idealize.ShloMosaic Idealize.ShloMosaic.TcCoe Idealize.SL.Sem

variable (m : (ℓ : Loc Cert.Kernel.nD Cert.Kernel.τ Cert.Kernel.sig) → Buf (Elt Bits) ℓ)

/-- The slot table the region reads is the launch memory's slot array: no host operation before the region writes it. -/
theorem tbl_eq : tbl m 0 = m (((0 : Dev nD) : Thread nD τ).loc main_arg3) := V_main_arg3 m 0

/-- A word in [0, n) read signed is below n read unsigned. -/
theorem toNat_lt_of_toInt (w : BitVec 32) (n : Nat) (h0 : 0 ≤ w.toInt) (h1 : w.toInt < (n : Int)) : w.toNat < n := by
  have hw := w.isLt
  rw [BitVec.toInt_eq_toNat_cond] at h0 h1
  split at h0 <;> omega

/-- THE PRECONDITION DECODED: every word of the launch memory's slot array names a pool row. -/
theorem slot_lt (h : Cert.Pre_Kernel m) : ∀ x, (m (((0 : Dev nD) : Thread nD τ).loc main_arg3) x).toNat < 8192 := by
  intro x
  rw [ValueIdx.eq_ix1 x]
  obtain ⟨h0, h1, -⟩ := Cert.PreFacts.ints_of_pre _ _ _ _ _ _ _ (h 0) (x 0)
  exact toNat_lt_of_toInt _ 8192 h0 h1

/-- The pipeline's side condition: the output window's block, at the slot word, inside the [8192, 1, 8192] pool. -/
theorem ok_of_pre (m : (ℓ : Loc Cert.Kernel.nD Cert.Kernel.τ Cert.Kernel.sig) → Buf (Elt Bits) ℓ) (h : Cert.Pre_Kernel m) : Cert.Kernel.Gen.Ok m := by
  intro i
  -- whatever index the map reads the table at, the word there is a pool row
  have hl : ∀ x, (tbl m 0 x).toNat < 8192 := fun x => by rw [tbl_eq]; exact slot_lt m h x
  obtain ⟨w, hw, e⟩ : ∃ w : BitVec 32, w.toNat < 8192 ∧ cc0_transform_2 k0_off1_inb numel1_S1 (tbl m) i = ![w.toNat, 0, 0] :=
    ⟨_, hl _, rfl⟩
  refine ⟨fun a => ?_, Or.inl rfl⟩
  rw [e]
  fin_cases a <;> simp [S1x1x8192, S8192x1x8192] <;> omega

end Cert.Kernel.OkOfPre

end
-- ==== Proof.OkKernelIdeal.lean ====
/-
  The pipeline's side condition on the slot table, from the precondition. The output window's index map reads, at grid
  point i, the slot word of request i and returns the block index (slot, 0, 0) of the [8192, 1, 8192] pool in blocks of
  [1, 1, 8192]; the block lies inside the pool exactly when slot < 8192 read unsigned. The precondition gives
  0 ≤ slot < 8192 read signed, and a word that is nonnegative signed reads the same unsigned. No host operation before
  the region writes the slot table, so the table the region reads is the launch memory's.
-/
import proofs.«429800_j60533269069830_1_alg».proof.Defs
import proofs.«429800_j60533269069830_1_alg».proof.Proof.Gen.KernelIdeal.Frame
import proofs.«429800_j60533269069830_1_alg».proof.Proof.Gen.Pre_finite_inputs
import proofs.«429800_j60533269069830_1_alg».proof.Proof.PreFacts

set_option maxRecDepth 16384

noncomputable section

namespace Cert.KernelIdeal.OkOfPre

open Cert.KernelIdeal Cert.KernelIdeal.Gen
open Idealize.ShloMosaic Idealize.ShloMosaic.TcCoe Idealize.SL.Sem

variable (m : (ℓ : Loc Cert.KernelIdeal.nD Cert.KernelIdeal.τ Cert.KernelIdeal.sig) → Buf (Elt Ideal) ℓ)

/-- The slot table the region reads is the launch memory's slot array: no host operation before the region writes it. -/
theorem tbl_eq : tbl m 0 = m (((0 : Dev nD) : Thread nD τ).loc main_arg3) := V_main_arg3 m 0

/-- A word in [0, n) read signed is below n read unsigned. -/
theorem toNat_lt_of_toInt (w : BitVec 32) (n : Nat) (h0 : 0 ≤ w.toInt) (h1 : w.toInt < (n : Int)) : w.toNat < n := by
  have hw := w.isLt
  rw [BitVec.toInt_eq_toNat_cond] at h0 h1
  split at h0 <;> omega

/-- THE PRECONDITION DECODED: every word of the launch memory's slot array names a pool row. -/
theorem slot_lt (h : Cert.Pre_KernelIdeal m) : ∀ x, (m (((0 : Dev nD) : Thread nD τ).loc main_arg3) x).toNat < 8192 := by
  intro x
  rw [ValueIdx.eq_ix1 x]
  obtain ⟨h0, h1, -⟩ := Cert.PreFacts.ints_of_pre _ _ _ _ _ _ _ (h 0) (x 0)
  exact toNat_lt_of_toInt _ 8192 h0 h1

/-- The pipeline's side condition: the output window's block, at the slot word, inside the [8192, 1, 8192] pool. -/
theorem ok_of_pre (m : (ℓ : Loc Cert.KernelIdeal.nD Cert.KernelIdeal.τ Cert.KernelIdeal.sig) → Buf (Elt Ideal) ℓ) (h : Cert.Pre_KernelIdeal m) : Cert.KernelIdeal.Gen.Ok m := by
  intro i
  -- whatever index the map reads the table at, the word there is a pool row
  have hl : ∀ x, (tbl m 0 x).toNat < 8192 := fun x => by rw [tbl_eq]; exact slot_lt m h x
  obtain ⟨w, hw, e⟩ : ∃ w : BitVec 32, w.toNat < 8192 ∧ cc0_transform_2 k0_off1_inb numel1_S1 (tbl m) i = ![w.toNat, 0, 0] :=
    ⟨_, hl _, rfl⟩
  refine ⟨fun a => ?_, Or.inl rfl⟩
  rw [e]
  fin_cases a <;> simp [S1x1x8192, S8192x1x8192] <;> omega

end Cert.KernelIdeal.OkOfPre

end
-- ==== Proof.Spec.lean ====
/-
  The token pool after the requests' rows have been written into it, one request after the other.

  A pool is a [8192, 8192] array, one row per slot. Request t (t = 0 … 15) names a slot `idx t` and brings a row of 8192
  values; writing the requests in order replaces row `idx t` of the pool by request t's row. When two requests name the
  same slot the later one is what the pool ends with. `applyRows` is that recursion, stated over any index type so that the
  same text serves the [8192, 8192] pool and its [8192, 1, 8192] reshaping; `written` is the pool after all sixteen.
-/
import Idealize.ShloMosaic.PureOps
import Idealize.ShloMosaic.Lib.ValueIdx

noncomputable section

namespace Cert.PoolRows

open Idealize.ShloMosaic Idealize.ShloMosaic.ValueIdx

/-- The pool, the requests' rows, the requests' slot words, and the slot words as a column. -/
abbrev Pool : Shape := ⟨2, ![8192, 8192]⟩
abbrev Rows : Shape := ⟨2, ![16, 8192]⟩
abbrev Req : Shape := ⟨1, ![16]⟩
abbrev ReqCol : Shape := ⟨2, ![16, 1]⟩

/-- The array after the first `t` rows have been written, in order: an index whose row (`rowOf i`) is the slot
    `idx t` takes request `t`'s value there (`rows t i`), every other index keeps what the earlier requests left. -/
def applyRows {I α : Type} (rowOf : I → ℕ) (idx : ℕ → ℕ) (rows : ℕ → I → α) (x : I → α) : ℕ → I → α
  | 0 => x
  | t + 1 => fun i => if rowOf i = idx t then rows t i else applyRows rowOf idx rows x t i

theorem applyRows_zero {I α : Type} (rowOf : I → ℕ) (idx : ℕ → ℕ) (rows : ℕ → I → α) (x : I → α) :
    applyRows rowOf idx rows x 0 = x := rfl

theorem applyRows_succ {I α : Type} (rowOf : I → ℕ) (idx : ℕ → ℕ) (rows : ℕ → I → α) (x : I → α) (t : ℕ) (i : I) :
    applyRows rowOf idx rows x (t + 1) i = if rowOf i = idx t then rows t i else applyRows rowOf idx rows x t i := rfl

/-- Request `t`'s slot: its word read unsigned (requests past the sixteenth: none). -/
def slot (idx : IVec Req 32) (t : ℕ) : ℕ := if h : t < 16 then (idx (ix1 ⟨t, h⟩)).toNat else 0

/-- What request `t` writes at pool index `i`: its row's entry in `i`'s column. -/
def rowVal {α : Type} (x : Pool.Idx → α) (rows : Rows.Idx → α) (t : ℕ) (i : Pool.Idx) : α :=
  if h : t < 16 then rows (ix2 ⟨t, h⟩ (i 1)) else x i

/-- The pool after all sixteen requests' rows have been written in order. -/
def written {α : Type} (x : Pool.Idx → α) (idx : IVec Req 32) (rows : Rows.Idx → α) : Pool.Idx → α :=
  applyRows (fun i => (i 0).val) (slot idx) (rowVal x rows) x 16

/-- The same recursion read through a change of index type: if `e` carries rows to rows, values to values and the
    starting array to the starting array, it carries the result to the result. -/
theorem applyRows_comp {I J α : Type} (e : J → I) (rowOf : I → ℕ) (idx : ℕ → ℕ) (rows : ℕ → I → α) (x : I → α) (t : ℕ) (j : J) :
    applyRows (fun j => rowOf (e j)) idx (fun t j => rows t (e j)) (fun j => x (e j)) t j = applyRows rowOf idx rows x t (e j) := by
  induction t with
  | zero => rfl
  | succ t ih => simp only [applyRows_succ, ih]

/-- The host scatter's dimension numbers: the update's axis 1 is a window over the pool's axis 1, the pool's axis 0 is
    the scattered one, read off the one component of the index column. -/
abbrev dims (wf : ScatterDims.WF Pool ReqCol Rows [1] [0] [0] 1) : ScatterDims Pool ReqCol Rows where
  updateWindowDims := [1]
  insertedWindowDims := [0]
  scatterDimsToOperandDims := [0]
  indexVectorDim := 1
  wf := wf

end Cert.PoolRows

end
-- ==== Proof.KArr.lean ====
/-
  The kernel's output array after the pipeline, with slots that may repeat.

  The output window's block at grid point t is the one pool row the slot table names for request t, whole. The pipeline
  writes a point's block back only when the next point's block is another one (or at the last point), so two consecutive
  requests naming one slot cost one write-back, of the later request's row; requests naming one slot further apart each
  write back, in order. Either way the array after the sixteen points is the rows written in order, the later request
  winning a shared slot: `arr_final`. It is proved for any contents of the slot table and any proof data whose write-backs
  are blocks of per-request whole-array contents `G t`: after n points the array agrees with the first n rows written in
  order at every index, except, when point n-1 did not write back, on the row point n-1 names, which point n names too
  and will overwrite (`arr_inv`).
-/
import proofs.«429800_j60533269069830_1_alg».proof.Proof.Gen.KernelIdeal.Frame
import proofs.«429800_j60533269069830_1_alg».proof.Proof.Spec
import Idealize.ShloMosaic.Lib.Pipeline.Value

set_option maxRecDepth 16384

noncomputable section

namespace Cert.KernelIdeal.KVal

open Cert.KernelIdeal Cert.KernelIdeal.Gen Cert.PoolRows
open Idealize.ShloMosaic Idealize.ShloMosaic.TcCoe Idealize.ShloMosaic.Tactic Idealize.SL.Sem
open Idealize.ShloMosaic.Pipeline (Dat Cfg Window)
open Idealize.ShloMosaic.ValueIdx

variable {F : FTy → Type} [FloatOps F]

/-- The kernel body copies its input block to its output block: what it leaves in the output's staging buffer is the
    input block (the one store writes the whole block; the shape cast between equal shapes is the identity). -/
theorem out_piece (c : Dev nD) (i : grid0.Coords) (arg2 : Memref sig .tc .vmem S1x1x8192 .f32) (harg2 : arg2.IsWhole) (arg4 : Memref sig .tc .vmem S1x1x8192 .f32) (harg4 : arg4.IsWhole)
    (x0 : Vec F S1x1x8192 .f32) (xt0 : TbBuf0 (F := F) c tbM0_0) :
    out0_A_1 (F := F) c i arg2 harg2 arg4 harg4 x0 xt0 = x0 := by
  unfold out0_A_1
  rw [View.read_writes_eq_canon _ _ _ (cover0_A_1 c i arg2 harg2 arg4 harg4 x0 xt0)]
  unfold kernelRun0_A
  dsimp only
  sl_unfold_words
  have hz : (![0, 0, 0] : Fin S1x1x8192.rank → Nat) = fun _ => 0 := by funext a; fin_cases a <;> rfl
  rw [View.canon_unit_zero hz]
  simp only [View.readAt_eq_ld, harg2.read_unread, View.ld_unit_zero (S := S1x1x8192) hz]
  unfold k0_pay1
  exact shapeCast_self _ _

/- The slot table's contents `a` are a variable throughout: nothing below depends on what they are. -/
variable (a : (pcfg0 (F := F)).Adm) (c : Dev nD) (dat : Dat τ (Elt F) Unit ℕ (UR sig nD τ) ℕ (cfg0 a) c)

/-- The output window's block index at grid point t, as a triple. -/
abbrev bix (t : Fin (cfg0 a).N) : Fin 3 → ℕ := ((cfg0 a).win 1).index t

/-- The pool row the output window's block sits at, at grid point t. -/
def blockRow (t : ℕ) : ℕ := if h : t < (cfg0 a).N then bix a ⟨t, h⟩ 0 else 0

/-- Only the first coordinate of the block index moves: the block is a whole pool row. -/
theorem bix_1 (t : Fin (cfg0 a).N) : bix a t 1 = 0 := rfl
theorem bix_2 (t : Fin (cfg0 a).N) : bix a t 2 = 0 := rfl

/-- Two points are at the same block when they name the same pool row. -/
theorem bix_ext (t u : Fin (cfg0 a).N) (h : bix a t 0 = bix a u 0) :
    ((cfg0 a).win 1).index t = ((cfg0 a).win 1).index u := by
  funext b
  match b with
  | ⟨0, _⟩ => exact h
  | ⟨1, _⟩ => rfl
  | ⟨2, _⟩ => rfl

/-- An index of the reshaped pool is in point t's block iff it is on the pool row the point names. -/
theorem mem_blk1 (t : Fin (cfg0 a).N) (i : S8192x1x8192.Idx) :
    i ∈ (((cfg0 a).win 1).blk t).view.set ↔ (i 0).val = bix a t 0 := by
  have e : (((cfg0 a).win 1).blk t).view.set = (((cfg0 a).win 1).rect t).set := View.set_slice_whole main_v38 _
  refine (Eq.to_iff (congrArg (fun s => i ∈ s) e)).trans ?_
  refine (Rect.mem_set_unit (i := i)).trans ?_
  constructor
  · intro h
    have h0 : bix a t 0 * 1 ≤ (i 0).val ∧ (i 0).val < bix a t 0 * 1 + 1 := h 0
    omega
  · intro h b
    match b with
    | ⟨0, _⟩ => show bix a t 0 * 1 ≤ (i 0).val ∧ (i 0).val < bix a t 0 * 1 + 1; omega
    | ⟨1, _⟩ => show 0 * 1 ≤ (i 1).val ∧ (i 1).val < 0 * 1 + 1; have h1 : (i 1).val < 1 := (i 1).isLt; omega
    | ⟨2, _⟩ => show 0 * 8192 ≤ (i 2).val ∧ (i 2).val < 0 * 8192 + 8192; have h2 : (i 2).val < 8192 := (i 2).isLt; omega

theorem blockRow_eq (n : ℕ) (h : n < (cfg0 a).N) : blockRow a n = bix a ⟨n, h⟩ 0 := dif_pos h

/-- A point that does not write its block back is followed by a point at the same block. -/
theorem same_block_of_not_flush (n : ℕ) (h : n + 1 < (cfg0 a).N)
    (hf : ((cfg0 a).win 1).flush ⟨n, Nat.lt_of_succ_lt h⟩ = false) : blockRow a (n + 1) = blockRow a n := by
  rw [blockRow_eq a (n + 1) h, blockRow_eq a n (Nat.lt_of_succ_lt h)]
  by_contra hne
  have ht : ((cfg0 a).win 1).flush ⟨n, Nat.lt_of_succ_lt h⟩ = true :=
    (Window.flush_out _ rfl _).mpr (Or.inr ⟨h, fun e => hne (congrFun e (0 : Fin 3))⟩)
  rw [ht] at hf; exact Bool.noConfusion hf

/-- The last point writes its block back. -/
theorem flush_last (h : 15 < (cfg0 a).N) : ((cfg0 a).win 1).flush ⟨15, h⟩ = true :=
  (Window.flush_out _ rfl _).mpr (Or.inl rfl)

variable (X : S8192x1x8192.Idx → Elt F .f32) (G : ℕ → S8192x1x8192.Idx → Elt F .f32)

/-- After n points the array is the first n rows written in order, at every index off the row a not yet written-back
    point n-1 names. -/
theorem arr_inv (hA : dat.A 1 = X)
    (hG : ∀ t : Fin (cfg0 a).N, dat.flushed 1 t = (((cfg0 a).win 1).blk t).view.read (Elt F) (G t.val)) :
    ∀ n, n ≤ (cfg0 a).N → ∀ i : S8192x1x8192.Idx,
      (∀ k (hk : k + 1 = n) (hn : k < (cfg0 a).N), ((cfg0 a).win 1).flush ⟨k, hn⟩ = false → (i 0).val ≠ blockRow a k) →
      dat.arrAt 1 n i = applyRows (fun i : S8192x1x8192.Idx => (i 0).val) (blockRow a) G X n i := by
  intro n
  induction n with
  | zero => intro _ i _; exact congrFun hA i
  | succ n ih =>
    intro hn i hc
    have hn' : n < (cfg0 a).N := hn
    have hs := Dat.arrAt_succ_apply dat 1 n i
    rw [dif_pos hn'] at hs
    refine hs.trans ?_
    rw [applyRows_succ]
    -- whenever the index is off point n's block, the earlier points decide
    have hoff : (i 0).val ≠ blockRow a n → dat.arrAt 1 n i = applyRows (fun i : S8192x1x8192.Idx => (i 0).val) (blockRow a) G X n i := by
      intro hne
      refine ih (Nat.le_of_lt hn') i ?_
      intro k hk hkn hfk
      subst hk
      rw [← same_block_of_not_flush a k hn' hfk]
      exact hne
    by_cases hf : ((cfg0 a).win 1).flush ⟨n, hn'⟩ = true
    · rw [if_pos hf, hG ⟨n, hn'⟩]
      refine (congrFun (View.write_read_eq_piecewise (v := (((cfg0 a).win 1).blk ⟨n, hn'⟩).view) (Val := Elt F) (dat.arrAt 1 n) (G n) Finset.univ) i).trans ?_
      by_cases hi : (i 0).val = blockRow a n
      · rw [if_pos hi]
        exact Finset.piecewise_eq_of_mem _ _ _ ((mem_blk1 a ⟨n, hn'⟩ i).mpr (hi.trans (blockRow_eq a n hn')))
      · rw [if_neg hi]
        have hnm : i ∉ (((cfg0 a).win 1).blk ⟨n, hn'⟩).view.set :=
          fun hm => hi (((mem_blk1 a ⟨n, hn'⟩ i).mp hm).trans (blockRow_eq a n hn').symm)
        exact (if_neg hnm).trans (hoff hi)
    · rw [if_neg hf]
      have hi : (i 0).val ≠ blockRow a n := hc n rfl hn' (by simpa using hf)
      rw [if_neg hi]
      exact hoff hi

/-- After all sixteen points (the last one always writes back) the array is the sixteen rows written in order. -/
theorem arr_final (hA : dat.A 1 = X)
    (hG : ∀ t : Fin (cfg0 a).N, dat.flushed 1 t = (((cfg0 a).win 1).blk t).view.read (Elt F) (G t.val)) :
    dat.arrAt 1 (cfg0 a).N = applyRows (fun i : S8192x1x8192.Idx => (i 0).val) (blockRow a) G X 16 := by
  funext i
  refine arr_inv a c dat X G hA hG 16 (Nat.le_refl _) i ?_
  intro k hk hkn hfk
  have : k = 15 := by omega
  subst this
  rw [flush_last a hkn] at hfk
  exact Bool.noConfusion hfk

end Cert.KernelIdeal.KVal

end
-- ==== Proof.Reshape.lean ====
/-
  The pool and the rows through their reshapings with a unit middle axis, [8192, 8192] ↔ [8192, 1, 8192] and
  [16, 8192] ↔ [16, 1, 8192]: writing the rows into the reshaped pool and reshaping back is writing them into the pool.
-/
import proofs.«429800_j60533269069830_1_alg».proof.Proof.Spec
import Idealize.ShloMosaic.Lib.Pipeline.Value

noncomputable section

namespace Cert.PoolRows

open Idealize.ShloMosaic Idealize.ShloMosaic.ValueIdx

/-- The pool and the rows with a unit middle axis. -/
abbrev Pool3 : Shape := ⟨3, ![8192, 1, 8192]⟩
abbrev Rows3 : Shape := ⟨3, ![16, 1, 8192]⟩

/-- What request `n` writes at index `i` of the reshaped pool: its reshaped row's entry in `i`'s last coordinate. -/
def rowVal3 {α : Type} (R : Rows3.Idx → α) (X : Pool3.Idx → α) (n : ℕ) (i : Pool3.Idx) : α :=
  if h : n < 16 then R (ix3 (⟨n, h⟩ : Fin 16) (0 : Fin 1) (i 2)) else X i

/-- The pool index (a, b) as an index of the reshaped pool: (a, 0, b). -/
def poolMid (j : Pool.Idx) : Pool3.Idx := ix3 (j 0 : Fin 8192) (0 : Fin 1) (j 1 : Fin 8192)

/-- (a, b) and (a, 0, b) have the same row-major position, a * 8192 + b. -/
theorem poolMid_rowMajor (j : Pool.Idx) : (Pool3.rowMajor (poolMid j)).val = (Pool.rowMajor j).val := by
  rw [Shape.rowMajor_val_three, Shape.rowMajor_val_two]
  show ((j 0).val * 1 + 0) * 8192 + (j 1).val = (j 0).val * 8192 + (j 1).val
  omega

/-- The reshaping back reads the reshaped array at (a, 0, b). -/
theorem shapeCast_back {α : Type} (X : Pool3.Idx → α) (h3 : Pool3.ShapeCasts Pool) (j : Pool.Idx) :
    shapeCast Pool X h3 j = X (poolMid j) :=
  shapeCast_apply X h3 j (poolMid j) (poolMid_rowMajor j)

/-- The reshaped pool at (a, 0, b) is the pool at (a, b). -/
theorem shapeCast_pool {α : Type} (x : Pool.Idx → α) (h1 : Pool.ShapeCasts Pool3) (j : Pool.Idx) :
    shapeCast Pool3 x h1 (poolMid j) = x j :=
  shapeCast_apply x h1 (poolMid j) j (poolMid_rowMajor j).symm

/-- The reshaped rows at (r, 0, c) are the rows at (r, c). -/
theorem shapeCast_rows {α : Type} (rows : Rows.Idx → α) (h2 : Rows.ShapeCasts Rows3) (r : Fin 16) (c : Fin 8192) :
    shapeCast Rows3 rows h2 (ix3 r (0 : Fin 1) c) = rows (ix2 r c) := by
  refine shapeCast_apply rows h2 (ix3 r (0 : Fin 1) c) (ix2 r c) ?_
  rw [Shape.rowMajor_val_three, Shape.rowMajor_val_two]
  show r.val * 8192 + c.val = (r.val * 1 + 0) * 8192 + c.val
  omega

/-- What a request writes in the reshaped pool at (a, 0, b) is what it writes in the pool at (a, b). -/
theorem rowVal3_poolMid {α : Type} (x : Pool.Idx → α) (rows : Rows.Idx → α)
    (h1 : Pool.ShapeCasts Pool3) (h2 : Rows.ShapeCasts Rows3) (n : ℕ) (j : Pool.Idx) :
    rowVal3 (shapeCast Rows3 rows h2) (shapeCast Pool3 x h1) n (poolMid j) = rowVal x rows n j := by
  unfold rowVal3 rowVal
  by_cases h : n < 16
  · rw [dif_pos h, dif_pos h]
    exact shapeCast_rows rows h2 ⟨n, h⟩ (j 1)
  · rw [dif_neg h, dif_neg h]
    exact shapeCast_pool x h1 j

/-- Writing the reshaped rows into the reshaped pool, then reshaping back, is writing the rows into the pool. -/
theorem written_of_reshaped {α : Type} (x : Pool.Idx → α) (rows : Rows.Idx → α) (idx : ℕ → ℕ)
    (h1 : Pool.ShapeCasts Pool3) (h2 : Rows.ShapeCasts Rows3) (h3 : Pool3.ShapeCasts Pool) :
    shapeCast Pool (applyRows (fun i : Pool3.Idx => (i 0).val) idx (rowVal3 (shapeCast Rows3 rows h2) (shapeCast Pool3 x h1))
        (shapeCast Pool3 x h1) 16) h3
      = applyRows (fun i : Pool.Idx => (i 0).val) idx (rowVal x rows) x 16 := by
  funext j
  rw [shapeCast_back]
  refine (applyRows_comp poolMid (fun i : Pool3.Idx => (i 0).val) idx
    (rowVal3 (shapeCast Rows3 rows h2) (shapeCast Pool3 x h1)) (shapeCast Pool3 x h1) 16 j).symm.trans ?_
  have e2 : (fun (t : ℕ) (j : Pool.Idx) => rowVal3 (shapeCast Rows3 rows h2) (shapeCast Pool3 x h1) t (poolMid j))
      = rowVal x rows := funext fun t => funext fun j => rowVal3_poolMid x rows h1 h2 t j
  have e3 : (fun j : Pool.Idx => shapeCast Pool3 x h1 (poolMid j)) = x := funext fun j => shapeCast_pool x h1 j
  rw [e2, e3]
  rfl

end Cert.PoolRows

end
-- ==== Proof.KRun.lean ====
/-
  The kernel program's run, read: the result array is the reshaped pool with the requests' rows written in order,
  reshaped back.

  Grid point t fetches block (t, 0, 0) of the reshaped rows [16, 1, 8192], request t's row, and the body copies it to
  the output block, which sits at pool row `slot t` of the reshaped pool [8192, 1, 8192]. So what point t writes back is
  its block of "request t's row laid over every pool row" (`flushed_eq`), the array after the region is the rows
  written in order over what the region found (`arr_after`), and the one host operation after the region reshapes it
  back to [8192, 8192] (`result_eq`). The arguments end as launched.
-/
import proofs.«429800_j60533269069830_1_alg».proof.Proof.KArr
import proofs.«429800_j60533269069830_1_alg».proof.Proof.Reshape

set_option maxRecDepth 16384

noncomputable section

namespace Cert.KernelIdeal.KVal

open Cert.KernelIdeal Cert.KernelIdeal.Gen Cert.PoolRows
open Idealize.ShloMosaic Idealize.ShloMosaic.TcCoe Idealize.ShloMosaic.Tactic Idealize.SL.Sem
open Idealize.ShloMosaic.Pipeline (Dat Cfg Window)
open Idealize.ShloMosaic.ValueIdx

variable {F : FTy → Type} [FloatOps F]

/-- The input window's block index at grid point t is (t, 0, 0). -/
theorem in_index : ∀ t : Fin grid0.N, cc0_transform_0 (grid0.coords t) = ![t.val, 0, 0] := by decide +kernel

/-- Element j of the input block at point t is element (t, 0, j₂) of the reshaped rows. -/
theorem emb0 (a : (pcfg0 (F := F)).Adm) (t : Fin (cfg0 a).N) (j : S1x1x8192.Idx) :
    (((cfg0 a).win 0).blk t).view.emb j = ix3 (⟨t.val, t.isLt⟩ : Fin 16) (0 : Fin 1) (j 2) := by
  have e := in_index t
  funext b
  apply Fin.ext
  match b with
  | ⟨0, _⟩ =>
    show cc0_transform_0 (grid0.coords t) 0 * 1 + 1 * (j 0).val = t.val
    have h0 : (j 0).val < 1 := (j 0).isLt
    rw [e]; show t.val * 1 + 1 * (j 0).val = t.val; omega
  | ⟨1, _⟩ =>
    show cc0_transform_0 (grid0.coords t) 1 * 1 + 1 * (j 1).val = 0
    have h1 : (j 1).val < 1 := (j 1).isLt
    rw [e]; show 0 * 1 + 1 * (j 1).val = 0; omega
  | ⟨2, _⟩ =>
    show cc0_transform_0 (grid0.coords t) 2 * 8192 + 1 * (j 2).val = (j 2).val
    rw [e]; show 0 * 8192 + 1 * (j 2).val = (j 2).val; omega

/-- An element of the output block keeps its last coordinate in the reshaped pool. -/
theorem emb1_col (a : (pcfg0 (F := F)).Adm) (t : Fin (cfg0 a).N) (j : S1x1x8192.Idx) (i : S8192x1x8192.Idx)
    (hi : i = (((cfg0 a).win 1).blk t).view.emb j) : i 2 = j 2 := by
  subst hi
  apply Fin.ext
  show bix a t 2 * 8192 + 1 * (j 2).val = (j 2).val
  rw [bix_2]; omega

/-- Request t's value at an index of the reshaped pool is its reshaped row's entry in the index's last coordinate. -/
theorem rowVal3_at (R : S16x1x8192.Idx → Elt F .f32) (X : S8192x1x8192.Idx → Elt F .f32) (t : Fin 16) (i : S8192x1x8192.Idx) :
    rowVal3 R X t.val i = R (ix3 t (0 : Fin 1) (i 2)) := by
  unfold rowVal3; rw [dif_pos t.isLt]

variable (m : (ℓ : Loc nD τ sig) → Buf (Elt F) ℓ) (ρ : Dev nD → PrngReg)

/-- What grid point t writes back is its block of request t's row laid over every pool row. -/
theorem flushed_eq (hO : Ok m) (c : Dev nD) (t : Fin (cfgM m hO).N) :
    (dats m hO 0 c).flushed 1 t
      = (((cfgM m hO).win 1).blk t).view.read (Elt F) (rowVal3 (V m c main_v37) (V m c main_v38) t.val) := by
  show ((cfgM m hO).win 1).cut (grid0.coords t) ((dats m hO 0 c).after 1 t) = _
  rw [after0_1]
  unfold outsAt0
  funext j
  refine (congrFun (out_piece c (grid0.coords t) (ms0_0 m hO t) (hs0_0 m hO t) (ms0_1 m hO t) (hs0_1 m hO t) (iblk m hO c 0 t) (tbl m 0)) j).trans ?_
  show V m c main_v37 ((((cfgM m hO).win 0).blk t).view.emb j) = rowVal3 (V m c main_v37) (V m c main_v38) t.val ((((cfgM m hO).win 1).blk t).view.emb j)
  refine Eq.trans ?_ (rowVal3_at (V m c main_v37) (V m c main_v38) ⟨t.val, t.isLt⟩ _).symm
  exact congrArg (V m c main_v37) ((emb0 (adm m hO) t j).trans
    (congrArg (ix3 (⟨t.val, t.isLt⟩ : Fin 16) (0 : Fin 1)) (emb1_col (adm m hO) t j _ rfl).symm))

/-- The reshaped pool after the region: the requests' rows written in order over what the region found. -/
theorem arr_after (hO : Ok m) (c : Dev nD) :
    (dats m hO 0 c).arrAt 1 (cfgM m hO).N
      = applyRows (fun i : S8192x1x8192.Idx => (i 0).val) (blockRow (adm m hO)) (rowVal3 (V m c main_v37) (V m c main_v38)) (V m c main_v38) 16 :=
  arr_final (adm m hO) c (dats m hO 0 c) (V m c main_v38) (rowVal3 (V m c main_v37) (V m c main_v38)) (A_eq m hO c 1) (flushed_eq m hO c)

/-- The result buffer: the one reshape after the region, of the array the region leaves. -/
theorem result_eq (hO : Ok m) (c : Dev nD) :
    Pipeline.afterTail pcfgs (fun _ => adm m hO) (dats m hO) 0 (V0 m) [hostOps1] c main_v39
      = shapeCast S8192x8192 (applyRows (fun i : S8192x1x8192.Idx => (i 0).val) (blockRow (adm m hO)) (rowVal3 (V m c main_v37) (V m c main_v38)) (V m c main_v38) 16) shapeCasts_S8192x1x8192_S8192x8192 := by
  unfold Pipeline.afterTail
  show StableHlo.after hostOps1 _ (Proc.devRef .tc main_v39) = _
  after_results
  have hw := Pipeline.withArrays_arr (τ := τ) spec0 (launch0 (F := F)).win.arr_inj c (V0 m c) (fun w => (dats m hO 0 c).arrAt w (cfgM m hO).N) 1
  funext i
  exact congrArg (fun X => shapeCast S8192x8192 X shapeCasts_S8192x1x8192_S8192x8192 i) (hw.trans (arr_after m hO c))

/-- The kernel's run: the result is the reshaped pool with the rows written in order, reshaped back; the arguments end
    unchanged. -/
theorem run (hO : Ok m) : θ_run defs (onTc (τ := τ) (main (F := F))) ⟨m, fun _ => 0, ρ⟩ (fun r => ∀ c : Dev nD,
      r.2.mem ((c.tc : Thread nD τ).loc main_v39)
        = shapeCast S8192x8192 (applyRows (fun i : S8192x1x8192.Idx => (i 0).val) (blockRow (adm m hO)) (rowVal3 (V m c main_v37) (V m c main_v38)) (V m c main_v38) 16) shapeCasts_S8192x1x8192_S8192x8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_v39 (by decide : main_v39 ∈ Pipeline.restRefs sig spec0)).trans (result_eq m hO c)),
      (((h c).2 main_arg0 (by decide : main_arg0 ∈ Pipeline.restRefs sig spec0)).trans (W_main_arg0 m hO (dats m hO) c)),
      (((h c).2 main_arg1 (by decide : main_arg1 ∈ Pipeline.restRefs sig spec0)).trans (W_main_arg1 m hO (dats m hO) c)),
      (((h c).2 main_arg2 (by decide : main_arg2 ∈ Pipeline.restRefs sig spec0)).trans (W_main_arg2 m hO (dats m hO) c)),
      (((h c).2 main_arg3 (by decide : main_arg3 ∈ Pipeline.restRefs sig spec0)).trans (W_main_arg3 m hO (dats m hO) c)),
      (((h c).2 main_arg4 (by decide : main_arg4 ∈ Pipeline.restRefs sig spec0)).trans (W_main_arg4 m hO (dats m hO) c)),
      (((h c).2 main_arg5 (by decide : main_arg5 ∈ Pipeline.restRefs sig spec0)).trans (W_main_arg5 m hO (dats m hO) c)),
      (((h c).2 main_arg6 (by decide : main_arg6 ∈ Pipeline.restRefs sig spec0)).trans (W_main_arg6 m hO (dats m hO) c))⟩)
    (run_main m ρ hO)

end Cert.KernelIdeal.KVal

end
-- ==== Proof.RowsSpec.lean ====
/-
  The sixteen requests' rows, as the two programs compute them on the host.

  Request b's row has 8192 columns. Column j holds: below the request's prefix length, the j-th prefix value; from there
  up to its sequence length, the value of the flat cache-location array at the request's running offset plus (j - prefix
  length); from the sequence length on, what the pool's row at the request's slot already held. Both programs build the row
  with the same chain of array operations except for the PREFIX VALUES. One pads the [16, 4096] prefix array with
  zeros to [16, 8192]; the other reads the prefix array at the column clipped into [0, 4095]. The two agree on the
  columns below 4096, and a column is read from the prefix values only when it is below the prefix length, which is at
  most 4096: so the two rows are equal.
-/
import proofs.«429800_j60533269069830_1_alg».proof.Proof.Spec
import Idealize.ShloMosaic.PureOps
import Idealize.ShloMosaic.Lib.ValueIdx
import Idealize.ShloMosaic.Lib.KernelVsHost
import Idealize.ShloMosaic.Lib.StableHlo.Predicate

noncomputable section

namespace Cert.RowsSpec

open Idealize.ShloMosaic Idealize.ShloMosaic.ValueIdx Cert.PoolRows

variable {F : FTy → Type} [FloatOps F]

/-! ## Shapes and dimension numbers -/

/-- The prefix array, the flat cache-location array, a row of columns (flat, as a one-row matrix, as a one-column
    matrix), a scalar, and the rows with a trailing unit axis. -/
abbrev Prefix : Shape := ⟨2, ![16, 4096]⟩
abbrev Flat : Shape := ⟨1, ![32768]⟩
abbrev Cols : Shape := ⟨1, ![8192]⟩
abbrev ColsRow : Shape := ⟨2, ![1, 8192]⟩
abbrev ColsCol : Shape := ⟨2, ![8192, 1]⟩
abbrev Scal : Shape := ⟨0, ![]⟩
abbrev RowsCol : Shape := ⟨3, ![16, 8192, 1]⟩

/-- Reading whole rows of the pool at a column of slot words. -/
def gatherPool : GatherDims Pool ReqCol Rows where
  offsetDims := [1]
  collapsedSliceDims := [0]
  operandBatchingDims := []
  startIndicesBatchingDims := []
  startIndexMap := [0]
  indexVectorDim := 1
  sliceSizes := ![1, 8192]
  wf := by decide

/-- Reading the flat array at one position per (request, column). -/
def gatherFlat : GatherDims Flat RowsCol Rows where
  offsetDims := []
  collapsedSliceDims := [0]
  operandBatchingDims := []
  startIndicesBatchingDims := []
  startIndexMap := [0]
  indexVectorDim := 2
  sliceSizes := ![1]
  wf := by decide

/-- Reading whole columns of the prefix array at a column of column numbers. -/
def gatherPrefix : GatherDims Prefix ColsCol Rows where
  offsetDims := [0]
  collapsedSliceDims := [1]
  operandBatchingDims := []
  startIndicesBatchingDims := []
  startIndexMap := [1]
  indexVectorDim := 1
  sliceSizes := ![16, 1]
  wf := by decide

/-! ## The shared terms -/

/-- The column number at every (request, column). -/
def posCols : IVec Rows 32 :=
  broadcastInDim Rows ![0, 1] (by decide) (broadcastInDim ColsRow ![1] (by decide) (iotaInDim Cols 32 0))

/-- A word per request laid along its row. -/
def perRow (a : IVec Req 32) : IVec Rows 32 :=
  broadcastInDim Rows ![0, 1] (by decide) (broadcastInDim ReqCol ![0] (by decide) a)

/-- Column below the prefix length. -/
def preMask (a4 : IVec Req 32) : IVec Rows 1 := cmpi .slt posCols (perRow a4)

/-- Column below the sequence length. -/
def seqMask (a5 : IVec Req 32) : IVec Rows 1 := cmpi .slt posCols (perRow a5)

/-- The pool's rows at the requests' slots (a negative slot word counted from the end). -/
def existing (a0 : FVec F Pool .f32) (a3 : IVec Req 32) : FVec F Rows .f32 :=
  Host.gather gatherPool a0
    (broadcastInDim ReqCol ![0] (by decide)
      (select (cmpi .slt a3 (broadcastInDim Req ![] (by decide) (constantI Scal 32 0#32)))
        (addi a3 (broadcastInDim Req ![] (by decide) (constantI Scal 32 8192#32))) a3))

/-- Each request's running offset into the flat array: the extend lengths summed up to and including it, less its own. -/
def extStart (a6 : IVec Req 32) : IVec Req 32 :=
  subi
    (Host.reduceWindow IntOp.addi ![16] ![1] ![15] ![0] a6
      (broadcastInDim Scal ![] (by decide) (constantI Scal 32 0#32)) (by decide) (by decide))
    a6

/-- The flat position each (request, column) reads, clipped into the flat array. -/
def extPos (a4 a6 : IVec Req 32) : IVec Rows 32 :=
  minsi (broadcastInDim Rows ![] (by decide) (id (constantI Scal 32 32767#32)))
    (maxsi (broadcastInDim Rows ![] (by decide) (id (constantI Scal 32 0#32)))
      (addi (broadcastInDim Rows ![0, 1] (by decide) (broadcastInDim ReqCol ![0] (by decide) (extStart a6)))
        (subi posCols (perRow a4))))

/-- The flat array's values at those positions. -/
def extVals (a2 : FVec F Flat .f32) (a4 a6 : IVec Req 32) : FVec F Rows .f32 :=
  Host.gather gatherFlat a2
    (broadcastInDim RowsCol ![0, 1] (by decide)
      (select (cmpi .slt (extPos a4 a6) (broadcastInDim Rows ![] (by decide) (constantI Scal 32 0#32)))
        (addi (extPos a4 a6) (broadcastInDim Rows ![] (by decide) (constantI Scal 32 32768#32))) (extPos a4 a6)))

/-! ## The two spellings of the prefix values -/

/-- The prefix array padded with zeros on the right to 8192 columns. -/
def prefixK (a1 : FVec F Prefix .f32) : FVec F Rows .f32 :=
  pad Rows ![0, 0] ![0, 4096] ![0, 0] a1 (sitofp (F := F) .f32 (constantI Scal 32 0#32)) (by decide) (by decide)

/-- The column number clipped into the prefix array's columns. -/
def prefixCol : IVec Cols 32 :=
  minsi (broadcastInDim Cols ![] (by decide) (id (constantI Scal 32 4095#32)))
    (maxsi (broadcastInDim Cols ![] (by decide) (id (constantI Scal 32 0#32))) (iotaInDim Cols 32 0))

/-- The prefix array read at the clipped column. -/
def prefixR (a1 : FVec F Prefix .f32) : FVec F Rows .f32 :=
  Host.gather gatherPrefix a1
    (broadcastInDim ColsCol ![0] (by decide)
      (select (cmpi .slt prefixCol (broadcastInDim Cols ![] (by decide) (constantI Scal 32 0#32)))
        (addi prefixCol (broadcastInDim Cols ![] (by decide) (constantI Scal 32 4096#32))) prefixCol))

/-! ## The rows -/

/-- The rows with the padded prefix values. -/
def rowsK (a0 : FVec F Pool .f32) (a1 : FVec F Prefix .f32) (a2 : FVec F Flat .f32) (a3 a4 a5 a6 : IVec Req 32) :
    FVec F Rows .f32 :=
  select (preMask a4) (prefixK a1) (select (seqMask a5) (extVals a2 a4 a6) (existing a0 a3))

/-- The rows with the prefix values read at the clipped column. -/
def rowsR (a0 : FVec F Pool .f32) (a1 : FVec F Prefix .f32) (a2 : FVec F Flat .f32) (a3 a4 a5 a6 : IVec Req 32) :
    FVec F Rows .f32 :=
  select (preMask a4) (prefixR a1) (select (seqMask a5) (extVals a2 a4 a6) (existing a0 a3))

/-! ## The shared terms read at a (request, column) -/

/-- The column-number array holds the column number. -/
theorem posCols_apply (b : Fin 16) (c : Fin 8192) : posCols (ix2 b c) = BitVec.ofNat 32 c.val := rfl

/-- A per-request word laid along the rows holds the request's word. -/
theorem perRow_apply (a : IVec Req 32) (b : Fin 16) (c : Fin 8192) : perRow a (ix2 b c) = a (ix1 b) := by
  unfold perRow
  rw [broadcastInDim_apply _ _ _ (ix2 b c) (ix2 b (0 : Fin 1)) (fun a => by match a with | ⟨0, _⟩ => rfl | ⟨1, _⟩ => rfl),
    broadcastInDim_apply _ _ _ (ix2 b (0 : Fin 1)) (ix1 b) (fun a => by match a with | ⟨0, _⟩ => rfl)]

/-- Where the prefix mask is set, the column is below the request's prefix length read as a signed integer. -/
theorem lt_of_preMask (a4 : IVec Req 32) (b : Fin 16) (c : Fin 8192) (h : preMask a4 (ix2 b c) = 1#1) :
    (c.val : Int) < (a4 (ix1 b)).toInt := by
  have h' : IntOp.cmpi .slt (posCols (ix2 b c)) (perRow a4 (ix2 b c)) = 1#1 := h
  rw [posCols_apply, perRow_apply] at h'
  unfold IntOp.cmpi at h'
  have hc : (BitVec.ofNat 32 c.val).toInt = c.val := StableHlo.Predicate.toInt_ofNat_small c.val (by have := c.isLt; omega)
  simpa [BitVec.slt, hc, StableHlo.Predicate.ofBool_eq_one_iff] using h'

/-! ## The two prefix values at a column below 4096 -/

/-- The padded prefix array at a column inside the prefix array is the prefix array there. -/
theorem prefixK_apply (a1 : FVec F Prefix .f32) (b : Fin 16) (c : Fin 8192) (hc : c.val < 4096) :
    prefixK a1 (ix2 b c) = a1 (ix2 b ⟨c.val, hc⟩) := by
  unfold prefixK
  exact pad_apply_of_inside _ _ _ _ _ _ _ (ix2 b c) (ix2 b ⟨c.val, hc⟩)
    (fun a => by match a with | ⟨0, _⟩ => simp | ⟨1, _⟩ => simp)

/-- The prefix gather at (request, column) reads the request's row of the prefix array at the column's start index,
    read signed and clamped into the 4096 columns. -/
theorem gatherPrefix_apply {α : Type} (x : Prefix.Idx → α) (idx : IVec ColsCol 32) (b : Fin 16) (c : Fin 8192) :
    Host.gather gatherPrefix x idx (ix2 b c)
      = x (ix2 b ⟨min (idx (ix2 c (0 : Fin 1))).toInt.toNat 4095, by omega⟩) := by
  unfold Host.gather
  refine congrArg x (funext fun a => Fin.ext ?_)
  match a with
  | ⟨0, _⟩ =>
    show gatherPrefix.start (ix2 b c) idx 0 + gatherPrefix.batchCoord (ix2 b c) 0 + gatherPrefix.offCoord (ix2 b c) 0 = b.val
    rw [GatherDims.batchCoord_eq_zero _ _ _ List.not_mem_nil]
    unfold GatherDims.start
    rw [dif_neg (by decide)]
    unfold GatherDims.offCoord
    rw [dif_pos (by decide), Nat.zero_add]
    rfl
  | ⟨1, _⟩ =>
    show gatherPrefix.start (ix2 b c) idx 1 + gatherPrefix.batchCoord (ix2 b c) 1 + gatherPrefix.offCoord (ix2 b c) 1
      = min (idx (ix2 c (0 : Fin 1))).toInt.toNat 4095
    rw [GatherDims.batchCoord_eq_zero _ _ _ List.not_mem_nil, GatherDims.offCoord_eq_zero _ _ _ (by decide)]
    unfold GatherDims.start
    rw [dif_pos (by decide)]
    have hsi : gatherPrefix.siIdx (ix2 b c) ⟨List.idxOf (1 : Fin 2) gatherPrefix.startIndexMap,
        List.idxOf_lt_length_iff.2 (by decide)⟩ = ix2 c (0 : Fin 1) := by
      funext d; refine Fin.ext ?_
      match d with
      | ⟨0, _⟩ => rfl
      | ⟨1, _⟩ => rfl
    rw [hsi]
    rfl

/-- A column number below 4096 is left alone by the clip into [0, 4095] … -/
theorem clip_small (n : Nat) (hn : n < 4096) :
    IntOp.minsi 4095#32 (IntOp.maxsi 0#32 (BitVec.ofNat 32 n)) = BitVec.ofNat 32 n := by
  have hn' : (BitVec.ofNat 32 n).toInt = n := StableHlo.Predicate.toInt_ofNat_small n (by omega)
  have h0 : (0#32 : BitVec 32).toInt = 0 := by decide
  have h4 : (4095#32 : BitVec 32).toInt = 4095 := by decide
  have h1 : (BitVec.ofNat 32 n).slt 0#32 = false := by
    simp only [BitVec.slt, hn', h0, decide_eq_false_iff_not]; omega
  have h2 : (4095#32 : BitVec 32).slt (BitVec.ofNat 32 n) = false := by
    simp only [BitVec.slt, hn', h4, decide_eq_false_iff_not]; omega
  simp only [IntOp.maxsi, IntOp.minsi, h1, h2, Bool.false_eq_true, ↓reduceIte]

/-- … and, not being negative, by the wrap of negative positions. -/
theorem wrap_small (n : Nat) (hn : n < 4096) (y : BitVec 32) :
    Scalar.select (IntOp.cmpi .slt (BitVec.ofNat 32 n) 0#32) y (BitVec.ofNat 32 n) = BitVec.ofNat 32 n := by
  have hn' : (BitVec.ofNat 32 n).toInt = n := StableHlo.Predicate.toInt_ofNat_small n (by omega)
  have h0 : (0#32 : BitVec 32).toInt = 0 := by decide
  have h1 : (BitVec.ofNat 32 n).slt 0#32 = false := by
    simp only [BitVec.slt, hn', h0, decide_eq_false_iff_not]; omega
  unfold IntOp.cmpi
  rw [h1]
  exact select_zero _ _

/-- The prefix gather at a column below 4096 is the prefix array there. -/
theorem prefixR_apply (a1 : FVec F Prefix .f32) (b : Fin 16) (c : Fin 8192) (hc : c.val < 4096) :
    prefixR a1 (ix2 b c) = a1 (ix2 b ⟨c.val, hc⟩) := by
  unfold prefixR
  rw [gatherPrefix_apply]
  have key : ∀ (idx : IVec ColsCol 32) (h : min (idx (ix2 c (0 : Fin 1))).toInt.toNat 4095 < 4096),
      idx (ix2 c (0 : Fin 1)) = BitVec.ofNat 32 c.val →
      a1 (ix2 b ⟨min (idx (ix2 c (0 : Fin 1))).toInt.toNat 4095, h⟩) = a1 (ix2 b ⟨c.val, hc⟩) := by
    intro idx h e
    have hv : min (idx (ix2 c (0 : Fin 1))).toInt.toNat 4095 = c.val := by
      rw [e, StableHlo.Predicate.toInt_ofNat_small c.val (by omega)]; omega
    exact congrArg a1 (congrArg (ix2 b) (Fin.ext hv))
  refine key _ _ ?_
  rw [broadcastInDim_apply _ _ _ (ix2 c (0 : Fin 1)) (ix1 c) (fun a => by match a with | ⟨0, _⟩ => rfl)]
  have hcol : prefixCol (ix1 c) = IntOp.minsi 4095#32 (IntOp.maxsi 0#32 (BitVec.ofNat 32 c.val)) := rfl
  show Scalar.select (IntOp.cmpi .slt (prefixCol (ix1 c)) 0#32) (IntOp.addi (prefixCol (ix1 c)) 4096#32) (prefixCol (ix1 c)) = _
  rw [hcol, clip_small c.val hc]
  exact wrap_small c.val hc _

/-! ## The rows are equal -/

/-- While every prefix length is at most 4096, the two programs' rows are the same array: at a column below the prefix
    length both prefix values are the prefix array's entry, and at every other column neither is read. -/
theorem rows_eq (a0 : FVec F Pool .f32) (a1 : FVec F Prefix .f32) (a2 : FVec F Flat .f32) (a3 a4 a5 a6 : IVec Req 32)
    (hpre : ∀ r : Fin 16, (a4 (ix1 r)).toInt ≤ 4096) :
    rowsK a0 a1 a2 a3 a4 a5 a6 = rowsR a0 a1 a2 a3 a4 a5 a6 := by
  funext j
  obtain ⟨b, c, rfl⟩ : ∃ b c, j = ix2 b c := ⟨j 0, j 1, eq_ix2 j⟩
  unfold rowsK rowsR
  simp only [select_apply]
  by_cases hm : preMask a4 (ix2 b c) = 1#1
  · have hlt := lt_of_preMask a4 b c hm
    have hc : c.val < 4096 := by have := hpre b; omega
    rw [hm, select_one, select_one, prefixK_apply a1 b c hc, prefixR_apply a1 b c hc]
  · rw [eq_zero_of_ne_one hm, select_zero, select_zero]

end Cert.RowsSpec

end
-- ==== Proof.KHost.lean ====
/-
  What the kernel's program has computed on the host when the pipelined region is entered, and where the region's
  output window lands.

  Before the region the program builds, by some fifty array operations on the launch memory, the sixteen requests' rows
  (a [16, 8192] array: per request and column the prefix value, the cache-location value or the pool's old value,
  chosen by two masks) and lays them out as [16, 1, 8192]; it lays the pool out as [8192, 1, 8192] and copies it. Each
  operation writes one buffer of its own and reads earlier ones, so the contents of a buffer at the region's entry is
  the composition of the operations on the path to it, applied to the launch memory: for the rows that composition is,
  term for term, the rows specification with the padded prefix values; for the pool it is the launch pool re-laid.
  The output window's index map at grid point t reads word t of the slot table and returns it, read unsigned, as the
  block's row.
-/
import proofs.«429800_j60533269069830_1_alg».proof.Proof.Gen.KernelIdeal.Frame
import proofs.«429800_j60533269069830_1_alg».proof.Proof.RowsSpec
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ)

/-- The pool the region's output window starts from: the launch pool, one row per [1, 8192] block. -/
theorem V_pool (c : Dev nD) :
    V m c main_v38
      = shapeCast S8192x1x8192 (m ((c : Thread nD τ).loc main_arg0)) shapeCasts_S8192x8192_S8192x1x8192 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results_simp
  rfl

/-- The requests' rows the region's input window reads: the rows specification (padded prefix values) of the launch
    memory's seven arrays, one request per [1, 8192] block. -/
theorem V_rows (c : Dev nD) :
    V m c main_v37
      = shapeCast S16x1x8192
          (Cert.RowsSpec.rowsK (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)))
          shapeCasts_S16x8192_S16x1x8192 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  -- each buffer on the path to the rows holds its operation applied to its operands' buffers
  after_results_simp
  -- a value passed into or out of a called function is carried along an identity of types: the same value
  dsimp only [TRef.toBuf, TRef.ofBuf, TRef.of]
  simp only [cast_eq]
  -- what is left is the specification's own term, its named parts written out
  rfl

/-- On the one-axis grid of sixteen points, point t's coordinate is t. -/
theorem coords_val (t : Fin grid0.N) : (grid0.coords t 0).val = t.val := by
  have h1 : grid0.stride 0 = 1 := by decide
  have h16 : grid0.bound 0 = 16 := rfl
  have hN := N_0
  have ht := t.isLt
  show t.val / grid0.stride 0 % grid0.bound 0 = t.val
  rw [h1, h16]
  omega

/-- The output window's block row at grid point t is word t of the slot table, read unsigned: at ANY contents of the table. -/
theorem block_word (a : (pcfg0 (F := F)).Adm) (t : Fin (cfg0 a).N) :
    ((cfg0 a).win 1).index t (0 : Fin 3) = (a.1 0 (ValueIdx.ix1 ⟨t.val, t.isLt⟩)).toNat := by
  show (a.1 0 ((Rect.unit (s := S16) ![(Scalar.indexCast (BitVec.ofNat 32 (grid0.coords t 0).val)).toNat] S1.size
      (k0_off1_inb (grid0.coords t))).emb (Shape.Idx.first _))).toNat = _
  refine congrArg (fun x => (a.1 0 x).toNat) ?_
  funext d
  apply Fin.ext
  fin_cases d
  show (Scalar.indexCast (BitVec.ofNat 32 (grid0.coords t 0).val)).toNat + 1 * 0 = t.val
  rw [coords_val]
  have ht := t.isLt
  have hN : (cfg0 a).N = 16 := N_0
  show (BitVec.ofNat 32 t.val).toNat + 1 * 0 = t.val
  rw [BitVec.toNat_ofNat]
  omega

end Cert.KernelIdeal.KHost

end
-- ==== Proof.KGlue.lean ====
/-
  The kernel program's result named by the specification. The region finds the reshaped rows at the reshaping of the
  rows the host computed and the reshaped pool at the reshaping of the pool argument; the block row of grid point t is
  request t's slot word read unsigned; so the result, the reshaped pool with the rows written in order reshaped back, is
  the pool with the host-computed rows written at the slots in order.
-/
import proofs.«429800_j60533269069830_1_alg».proof.Proof.KRun
import proofs.«429800_j60533269069830_1_alg».proof.Proof.KHost

set_option maxRecDepth 16384

noncomputable section

namespace Cert.KernelIdeal.KVal

open Cert.KernelIdeal Cert.KernelIdeal.Gen Cert.PoolRows
open Idealize.ShloMosaic Idealize.ShloMosaic.TcCoe Idealize.SL.Sem
open Idealize.ShloMosaic.ValueIdx

variable {F : FTy → Type} [FloatOps F]

/-- Writing rows at slots that agree request by request, with values that agree request by request, gives the same array. -/
theorem applyRows_congr {I α : Type} (rowOf : I → ℕ) (idx idx' : ℕ → ℕ) (rows : ℕ → I → α) (x : I → α) :
    ∀ n, (∀ t, t < n → idx t = idx' t) → applyRows rowOf idx rows x n = applyRows rowOf idx' rows x n
  | 0, _ => rfl
  | n + 1, h => by
    funext i
    rw [applyRows_succ, applyRows_succ, h n (Nat.lt_succ_self n), applyRows_congr rowOf idx idx' rows x n (fun t ht => h t (Nat.lt_succ_of_lt ht))]

variable (m : (ℓ : Loc nD τ sig) → Buf (Elt F) ℓ) (ρ : Dev nD → PrngReg)

/-- The block row of grid point t is request t's slot word, read unsigned, off the launch memory. -/
theorem blockRow_slot (hO : Ok m) (t : ℕ) (ht : t < 16) :
    blockRow (adm m hO) t = slot (m (((0 : Dev nD) : Thread nD τ).loc main_arg3)) t := by
  unfold blockRow slot
  rw [dif_pos (show t < (cfg0 (adm m hO)).N from ht), dif_pos ht]
  refine (Cert.KernelIdeal.KHost.block_word (adm m hO) ⟨t, ht⟩).trans ?_
  exact congrArg (fun w : IVec S16 32 => (w (ix1 (⟨t, ht⟩ : Fin 16))).toNat) (V_main_arg3 m 0)

/-- The result as the specification names it: the pool with the host-computed rows written at the slots, in order. -/
theorem value_eq (hO : Ok m) (c : Dev nD) :
    shapeCast S8192x8192 (applyRows (fun i : S8192x1x8192.Idx => (i 0).val) (blockRow (adm m hO)) (rowVal3 (V m c main_v37) (V m c main_v38)) (V m c main_v38) 16) shapeCasts_S8192x1x8192_S8192x8192
      = written (m ((c : Thread nD τ).loc main_arg0)) (m ((c : Thread nD τ).loc main_arg3))
          (Cert.RowsSpec.rowsK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  obtain rfl : c = 0 := Subsingleton.elim _ _
  rw [Cert.KernelIdeal.KHost.V_rows m 0, Cert.KernelIdeal.KHost.V_pool m 0]
  rw [applyRows_congr _ _ _ _ _ 16 (fun t ht => blockRow_slot m hO t ht)]
  exact written_of_reshaped _ _ _ _ _ _

/-- The kernel program's run with its result named by the specification. -/
theorem run_written (hO : Ok m) : θ_run defs (onTc (τ := τ) (main (F := F))) ⟨m, fun _ => 0, ρ⟩ (fun r => ∀ c : Dev nD,
      r.2.mem ((c.tc : Thread nD τ).loc main_v39)
        = written (m ((c.tc : Thread nD τ).loc main_arg0)) (m ((c.tc : Thread nD τ).loc main_arg3))
          (Cert.RowsSpec.rowsK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (value_eq m hO c), (h c).2⟩) (run m ρ hO)

end Cert.KernelIdeal.KVal

end
-- ==== Proof.RefRun.lean ====
/-
  The reference program's run. Its @main is a straight line of 76 host operations once the four functions it
  calls (a running sum, two clamps, two selections) are read at their call sites: each operation reads
  buffers written before it and writes one buffer of its own. Run in order from any launch memory, the result
  buffer ends at the composition of the operations' functions over the seven arguments' launch contents, and
  the arguments' buffers are never written.

  The composition is named in three pieces. `rows` is the [16, 8192] array of the requests' rows (value %44):
  per request and column, the prefix table's entry below the prefix length, the cache-location entry from
  there up to the sequence length, and the pool's old entry beyond. `slotCol` is the requests' slot words,
  a negative word taken modulo the pool's height, as a column (value %50). `out` is the pool with the rows
  written at the slots, in request order (value %51).
-/
import proofs.«429800_j60533269069830_1_alg».proof.ReferenceIdeal
import proofs.«429800_j60533269069830_1_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The requests' slot words as a column: a negative word has the pool's height 8192 added, every other word is kept. -/
def slotCol (a3 : IVec S16 32) : IVec S16x1 32 :=
  broadcastInDim S16x1 ![0] bcast_S16_S16x1_0
    (select
       (cmpi .slt a3 (broadcastInDim S16 ![] bcast_S_S16 (constantI S_ 32 0#32)))
       (addi a3 (broadcastInDim S16 ![] bcast_S_S16 (constantI S_ 32 8192#32)))
       a3)

/-- The requests' rows. Column `j` of request `r` is: the prefix table's entry `(r, j)` where `j` is below the
    request's prefix length (the column clamped into the table's 4096 columns); else the cache-location entry at
    `(running sum of the extend lengths up to r) - (r's extend length) + (j - prefix length)`, clamped into
    the 32768 entries, where `j` is below the request's sequence length; else the pool's own entry `(slot r, j)`. -/
def rows (a0 : FVec F S8192x8192 .f32) (a1 : FVec F S16x4096 .f32) (a2 : FVec F S32768 .f32) (a3 a4 a5 a6 : IVec S16 32) :
    FVec F S16x8192 .f32 :=
  select
    (cmpi .slt
       (broadcastInDim S16x8192 ![0, 1] bcast_S1x8192_S16x8192_0_1
          (broadcastInDim S1x8192 ![1] bcast_S8192_S1x8192_1 (iotaInDim S8192 32 0)))
       (broadcastInDim S16x8192 ![0, 1] bcast_S16x1_S16x8192_0_1 (broadcastInDim S16x1 ![0] bcast_S16_S16x1_0 a4)))
    (Host.gather gather_S16x4096_S8192x1_S16x8192_0_1_n_n_1_1_161 a1
       (broadcastInDim S8192x1 ![0] bcast_S8192_S8192x1_0
          (select
             (cmpi .slt
                (minsi
                   (broadcastInDim S8192 ![] bcast_S_S8192 (id (constantI S_ 32 4095#32)))
                   (maxsi (broadcastInDim S8192 ![] bcast_S_S8192 (id (constantI S_ 32 0#32))) (iotaInDim S8192 32 0)))
                (broadcastInDim S8192 ![] bcast_S_S8192 (constantI S_ 32 0#32)))
             (addi
                (minsi
                   (broadcastInDim S8192 ![] bcast_S_S8192 (id (constantI S_ 32 4095#32)))
                   (maxsi (broadcastInDim S8192 ![] bcast_S_S8192 (id (constantI S_ 32 0#32))) (iotaInDim S8192 32 0)))
                (broadcastInDim S8192 ![] bcast_S_S8192 (constantI S_ 32 4096#32)))
             (minsi
                (broadcastInDim S8192 ![] bcast_S_S8192 (id (constantI S_ 32 4095#32)))
                (maxsi (broadcastInDim S8192 ![] bcast_S_S8192 (id (constantI S_ 32 0#32))) (iotaInDim S8192 32 0))))))
    (select
       (cmpi .slt
          (broadcastInDim S16x8192 ![0, 1] bcast_S1x8192_S16x8192_0_1
             (broadcastInDim S1x8192 ![1] bcast_S8192_S1x8192_1 (iotaInDim S8192 32 0)))
          (broadcastInDim S16x8192 ![0, 1] bcast_S16x1_S16x8192_0_1 (broadcastInDim S16x1 ![0] bcast_S16_S16x1_0 a5)))
       (Host.gather gather_S32768_S16x8192x1_S16x8192_n_0_n_n_0_2_1 a2
          (broadcastInDim S16x8192x1 ![0, 1] bcast_S16x8192_S16x8192x1_0_1
             (select
                (cmpi .slt
                   (minsi
                      (broadcastInDim S16x8192 ![] bcast_S_S16x8192 (id (constantI S_ 32 32767#32)))
                      (maxsi
                         (broadcastInDim S16x8192 ![] bcast_S_S16x8192 (id (constantI S_ 32 0#32)))
                         (addi
                            (broadcastInDim S16x8192 ![0, 1] bcast_S16x1_S16x8192_0_1
                               (broadcastInDim S16x1 ![0] bcast_S16_S16x1_0
                                  (subi
                                     (Host.reduceWindow IntOp.addi ![16] ![1] ![15] ![0] a6
                                        (broadcastInDim S_ ![] bcast_S_S_ (constantI S_ 32 0#32))
                                        reduceWindows_S16_S16_w16s1p15_0
                                        h_S_)
                                     a6)))
                            (subi
                               (broadcastInDim S16x8192 ![0, 1] bcast_S1x8192_S16x8192_0_1
                                  (broadcastInDim S1x8192 ![1] bcast_S8192_S1x8192_1 (iotaInDim S8192 32 0)))
                               (broadcastInDim S16x8192 ![0, 1] bcast_S16x1_S16x8192_0_1
                                  (broadcastInDim S16x1 ![0] bcast_S16_S16x1_0 a4))))))
                   (broadcastInDim S16x8192 ![] bcast_S_S16x8192 (constantI S_ 32 0#32)))
                (addi
                   (minsi
                      (broadcastInDim S16x8192 ![] bcast_S_S16x8192 (id (constantI S_ 32 32767#32)))
                      (maxsi
                         (broadcastInDim S16x8192 ![] bcast_S_S16x8192 (id (constantI S_ 32 0#32)))
                         (addi
                            (broadcastInDim S16x8192 ![0, 1] bcast_S16x1_S16x8192_0_1
                               (broadcastInDim S16x1 ![0] bcast_S16_S16x1_0
                                  (subi
                                     (Host.reduceWindow IntOp.addi ![16] ![1] ![15] ![0] a6
                                        (broadcastInDim S_ ![] bcast_S_S_ (constantI S_ 32 0#32))
                                        reduceWindows_S16_S16_w16s1p15_0
                                        h_S_)
                                     a6)))
                            (subi
                               (broadcastInDim S16x8192 ![0, 1] bcast_S1x8192_S16x8192_0_1
                                  (broadcastInDim S1x8192 ![1] bcast_S8192_S1x8192_1 (iotaInDim S8192 32 0)))
                               (broadcastInDim S16x8192 ![0, 1] bcast_S16x1_S16x8192_0_1
                                  (broadcastInDim S16x1 ![0] bcast_S16_S16x1_0 a4))))))
                   (broadcastInDim S16x8192 ![] bcast_S_S16x8192 (constantI S_ 32 32768#32)))
                (minsi
                   (broadcastInDim S16x8192 ![] bcast_S_S16x8192 (id (constantI S_ 32 32767#32)))
                   (maxsi
                      (broadcastInDim S16x8192 ![] bcast_S_S16x8192 (id (constantI S_ 32 0#32)))
                      (addi
                         (broadcastInDim S16x8192 ![0, 1] bcast_S16x1_S16x8192_0_1
                            (broadcastInDim S16x1 ![0] bcast_S16_S16x1_0
                               (subi
                                  (Host.reduceWindow IntOp.addi ![16] ![1] ![15] ![0] a6
                                     (broadcastInDim S_ ![] bcast_S_S_ (constantI S_ 32 0#32))
                                     reduceWindows_S16_S16_w16s1p15_0
                                     h_S_)
                                  a6)))
                         (subi
                            (broadcastInDim S16x8192 ![0, 1] bcast_S1x8192_S16x8192_0_1
                               (broadcastInDim S1x8192 ![1] bcast_S8192_S1x8192_1 (iotaInDim S8192 32 0)))
                            (broadcastInDim S16x8192 ![0, 1] bcast_S16x1_S16x8192_0_1
                               (broadcastInDim S16x1 ![0] bcast_S16_S16x1_0 a4)))))))))
       (Host.gather gather_S8192x8192_S16x1_S16x8192_1_0_n_n_0_1_18192 a0
          (broadcastInDim S16x1 ![0] bcast_S16_S16x1_0
             (select
                (cmpi .slt a3 (broadcastInDim S16 ![] bcast_S_S16 (constantI S_ 32 0#32)))
                (addi a3 (broadcastInDim S16 ![] bcast_S_S16 (constantI S_ 32 8192#32)))
                a3))))

/-- The pool after the sixteen rows are written at their slots, in request order. -/
def out (a0 : FVec F S8192x8192 .f32) (a1 : FVec F S16x4096 .f32) (a2 : FVec F S32768 .f32) (a3 a4 a5 a6 : IVec S16 32) :
    FVec F S8192x8192 .f32 :=
  Host.scatter scatter_S8192x8192_S16x1_S16x8192_1_0_0_1 (fun _ b => b) a0 (slotCol a3) (rows a0 a1 a2 a3 a4 a5 a6)

/-- @main's 76 operations, in order: the called functions' operations stand at their call sites, over the
    buffers of that call. -/
abbrev ops : List (HloOp τ sig (Elt F)) :=
  [
    nullary main_v0 (iotaInDim S8192 32 0),
    TRef.nullary main_call0.call0.c (constantI S_ 32 0#32),
    TRef.unary main_call0.call0.c main_call0.call0.v0 (broadcastInDim S_ ![] bcast_S_S_),
    TRef.binary (.of main_arg6 : TRef sig ⟨S16, .i32⟩) main_call0.call0.v0 main_call0.call0.v1 (fun x v => Host.reduceWindow IntOp.addi ![16] ![1] ![15] ![0] x v reduceWindows_S16_S16_w16s1p15_0 h_S_),
    binary main_v1 main_arg6 main_v2 (subi : (⟨S16, .i32⟩ : BufTy).Contents (Elt F) → (⟨S16, .i32⟩ : BufTy).Contents (Elt F) → (⟨S16, .i32⟩ : BufTy).Contents (Elt F)),
    unary main_arg4 main_v3 (broadcastInDim S16x1 ![0] bcast_S16_S16x1_0 : (⟨S16, .i32⟩ : BufTy).Contents (Elt F) → (⟨S16x1, .i32⟩ : BufTy).Contents (Elt F)),
    unary main_arg5 main_v4 (broadcastInDim S16x1 ![0] bcast_S16_S16x1_0 : (⟨S16, .i32⟩ : BufTy).Contents (Elt F) → (⟨S16x1, .i32⟩ : BufTy).Contents (Elt F)),
    nullary main_c (constantI S_ 32 0#32),
    unary main_c main_v5 (broadcastInDim S16 ![] bcast_S_S16 : (⟨S_, .i32⟩ : BufTy).Contents (Elt F) → (⟨S16, .i32⟩ : BufTy).Contents (Elt F)),
    binary main_arg3 main_v5 main_v6 (cmpi .slt : (⟨S16, .i32⟩ : BufTy).Contents (Elt F) → (⟨S16, .i32⟩ : BufTy).Contents (Elt F) → (⟨S16, .i1⟩ : BufTy).Contents (Elt F)),
    nullary main_c_0 (constantI S_ 32 8192#32),
    unary main_c_0 main_v7 (broadcastInDim S16 ![] bcast_S_S16 : (⟨S_, .i32⟩ : BufTy).Contents (Elt F) → (⟨S16, .i32⟩ : BufTy).Contents (Elt F)),
    binary main_arg3 main_v7 main_v8 (addi : (⟨S16, .i32⟩ : BufTy).Contents (Elt F) → (⟨S16, .i32⟩ : BufTy).Contents (Elt F) → (⟨S16, .i32⟩ : BufTy).Contents (Elt F)),
    ternary main_v6 main_v8 main_arg3 main_v9 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v9 main_v10 (broadcastInDim S16x1 ![0] bcast_S16_S16x1_0 : (⟨S16, .i32⟩ : BufTy).Contents (Elt F) → (⟨S16x1, .i32⟩ : BufTy).Contents (Elt F)),
    binary main_arg0 main_v10 main_v11 ((fun x i => Host.gather gather_S8192x8192_S16x1_S16x8192_1_0_n_n_0_1_18192 x i) : (⟨S8192x8192, .f32⟩ : BufTy).Contents (Elt F) → (⟨S16x1, .i32⟩ : BufTy).Contents (Elt F) → (⟨S16x8192, .f32⟩ : BufTy).Contents (Elt F)),
    nullary main_c_1 (constantI S_ 32 0#32),
    nullary main_c_2 (constantI S_ 32 4095#32),
    TRef.unary (.of main_c_1 : TRef sig ⟨S_, .i32⟩) main_call1.v0 id,
    TRef.unary main_call1.v0 main_call1.v1 (broadcastInDim S8192 ![] bcast_S_S8192),
    TRef.binary main_call1.v1 (.of main_v0 : TRef sig ⟨S8192, .i32⟩) main_call1.v2 maxsi,
    TRef.unary (.of main_c_2 : TRef sig ⟨S_, .i32⟩) main_call1.v3 id,
    TRef.unary main_call1.v3 main_call1.v4 (broadcastInDim S8192 ![] bcast_S_S8192),
    TRef.binary main_call1.v4 main_call1.v2 main_call1.v5 minsi,
    nullary main_c_3 (constantI S_ 32 0#32),
    unary main_c_3 main_v13 (broadcastInDim S8192 ![] bcast_S_S8192 : (⟨S_, .i32⟩ : BufTy).Contents (Elt F) → (⟨S8192, .i32⟩ : BufTy).Contents (Elt F)),
    binary main_v12 main_v13 main_v14 (cmpi .slt : (⟨S8192, .i32⟩ : BufTy).Contents (Elt F) → (⟨S8192, .i32⟩ : BufTy).Contents (Elt F) → (⟨S8192, .i1⟩ : BufTy).Contents (Elt F)),
    nullary main_c_4 (constantI S_ 32 4096#32),
    unary main_c_4 main_v15 (broadcastInDim S8192 ![] bcast_S_S8192 : (⟨S_, .i32⟩ : BufTy).Contents (Elt F) → (⟨S8192, .i32⟩ : BufTy).Contents (Elt F)),
    binary main_v12 main_v15 main_v16 (addi : (⟨S8192, .i32⟩ : BufTy).Contents (Elt F) → (⟨S8192, .i32⟩ : BufTy).Contents (Elt F) → (⟨S8192, .i32⟩ : BufTy).Contents (Elt F)),
    ternary main_v14 main_v16 main_v12 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v17 main_v18 (broadcastInDim S8192x1 ![0] bcast_S8192_S8192x1_0 : (⟨S8192, .i32⟩ : BufTy).Contents (Elt F) → (⟨S8192x1, .i32⟩ : BufTy).Contents (Elt F)),
    binary main_arg1 main_v18 main_v19 ((fun x i => Host.gather gather_S16x4096_S8192x1_S16x8192_0_1_n_n_1_1_161 x i) : (⟨S16x4096, .f32⟩ : BufTy).Contents (Elt F) → (⟨S8192x1, .i32⟩ : BufTy).Contents (Elt F) → (⟨S16x8192, .f32⟩ : BufTy).Contents (Elt F)),
    unary main_v2 main_v20 (broadcastInDim S16x1 ![0] bcast_S16_S16x1_0 : (⟨S16, .i32⟩ : BufTy).Contents (Elt F) → (⟨S16x1, .i32⟩ : BufTy).Contents (Elt F)),
    unary main_v0 main_v21 (broadcastInDim S1x8192 ![1] bcast_S8192_S1x8192_1 : (⟨S8192, .i32⟩ : BufTy).Contents (Elt F) → (⟨S1x8192, .i32⟩ : BufTy).Contents (Elt F)),
    unary main_v21 main_v22 (broadcastInDim S16x8192 ![0, 1] bcast_S1x8192_S16x8192_0_1 : (⟨S1x8192, .i32⟩ : BufTy).Contents (Elt F) → (⟨S16x8192, .i32⟩ : BufTy).Contents (Elt F)),
    unary main_v3 main_v23 (broadcastInDim S16x8192 ![0, 1] bcast_S16x1_S16x8192_0_1 : (⟨S16x1, .i32⟩ : BufTy).Contents (Elt F) → (⟨S16x8192, .i32⟩ : BufTy).Contents (Elt F)),
    binary main_v22 main_v23 main_v24 (subi : (⟨S16x8192, .i32⟩ : BufTy).Contents (Elt F) → (⟨S16x8192, .i32⟩ : BufTy).Contents (Elt F) → (⟨S16x8192, .i32⟩ : BufTy).Contents (Elt F)),
    unary main_v20 main_v25 (broadcastInDim S16x8192 ![0, 1] bcast_S16x1_S16x8192_0_1 : (⟨S16x1, .i32⟩ : BufTy).Contents (Elt F) → (⟨S16x8192, .i32⟩ : BufTy).Contents (Elt F)),
    binary main_v25 main_v24 main_v26 (addi : (⟨S16x8192, .i32⟩ : BufTy).Contents (Elt F) → (⟨S16x8192, .i32⟩ : BufTy).Contents (Elt F) → (⟨S16x8192, .i32⟩ : BufTy).Contents (Elt F)),
    nullary main_c_5 (constantI S_ 32 0#32),
    nullary main_c_6 (constantI S_ 32 32767#32),
    TRef.unary (.of main_c_5 : TRef sig ⟨S_, .i32⟩) main_call2.v0 id,
    TRef.unary main_call2.v0 main_call2.v1 (broadcastInDim S16x8192 ![] bcast_S_S16x8192),
    TRef.binary main_call2.v1 (.of main_v26 : TRef sig ⟨S16x8192, .i32⟩) main_call2.v2 maxsi,
    TRef.unary (.of main_c_6 : TRef sig ⟨S_, .i32⟩) main_call2.v3 id,
    TRef.unary main_call2.v3 main_call2.v4 (broadcastInDim S16x8192 ![] bcast_S_S16x8192),
    TRef.binary main_call2.v4 main_call2.v2 main_call2.v5 minsi,
    nullary main_c_7 (constantI S_ 32 0#32),
    unary main_c_7 main_v28 (broadcastInDim S16x8192 ![] bcast_S_S16x8192 : (⟨S_, .i32⟩ : BufTy).Contents (Elt F) → (⟨S16x8192, .i32⟩ : BufTy).Contents (Elt F)),
    binary main_v27 main_v28 main_v29 (cmpi .slt : (⟨S16x8192, .i32⟩ : BufTy).Contents (Elt F) → (⟨S16x8192, .i32⟩ : BufTy).Contents (Elt F) → (⟨S16x8192, .i1⟩ : BufTy).Contents (Elt F)),
    nullary main_c_8 (constantI S_ 32 32768#32),
    unary main_c_8 main_v30 (broadcastInDim S16x8192 ![] bcast_S_S16x8192 : (⟨S_, .i32⟩ : BufTy).Contents (Elt F) → (⟨S16x8192, .i32⟩ : BufTy).Contents (Elt F)),
    binary main_v27 main_v30 main_v31 (addi : (⟨S16x8192, .i32⟩ : BufTy).Contents (Elt F) → (⟨S16x8192, .i32⟩ : BufTy).Contents (Elt F) → (⟨S16x8192, .i32⟩ : BufTy).Contents (Elt F)),
    ternary main_v29 main_v31 main_v27 main_v32 (select : (⟨S16x8192, .i1⟩ : BufTy).Contents (Elt F) → (⟨S16x8192, .i32⟩ : BufTy).Contents (Elt F) → (⟨S16x8192, .i32⟩ : BufTy).Contents (Elt F) → (⟨S16x8192, .i32⟩ : BufTy).Contents (Elt F)),
    unary main_v32 main_v33 (broadcastInDim S16x8192x1 ![0, 1] bcast_S16x8192_S16x8192x1_0_1 : (⟨S16x8192, .i32⟩ : BufTy).Contents (Elt F) → (⟨S16x8192x1, .i32⟩ : BufTy).Contents (Elt F)),
    binary main_arg2 main_v33 main_v34 ((fun x i => Host.gather gather_S32768_S16x8192x1_S16x8192_n_0_n_n_0_2_1 x i) : (⟨S32768, .f32⟩ : BufTy).Contents (Elt F) → (⟨S16x8192x1, .i32⟩ : BufTy).Contents (Elt F) → (⟨S16x8192, .f32⟩ : BufTy).Contents (Elt F)),
    unary main_v0 main_v35 (broadcastInDim S1x8192 ![1] bcast_S8192_S1x8192_1 : (⟨S8192, .i32⟩ : BufTy).Contents (Elt F) → (⟨S1x8192, .i32⟩ : BufTy).Contents (Elt F)),
    unary main_v35 main_v36 (broadcastInDim S16x8192 ![0, 1] bcast_S1x8192_S16x8192_0_1 : (⟨S1x8192, .i32⟩ : BufTy).Contents (Elt F) → (⟨S16x8192, .i32⟩ : BufTy).Contents (Elt F)),
    unary main_v3 main_v37 (broadcastInDim S16x8192 ![0, 1] bcast_S16x1_S16x8192_0_1 : (⟨S16x1, .i32⟩ : BufTy).Contents (Elt F) → (⟨S16x8192, .i32⟩ : BufTy).Contents (Elt F)),
    binary main_v36 main_v37 main_v38 (cmpi .slt : (⟨S16x8192, .i32⟩ : BufTy).Contents (Elt F) → (⟨S16x8192, .i32⟩ : BufTy).Contents (Elt F) → (⟨S16x8192, .i1⟩ : BufTy).Contents (Elt F)),
    unary main_v0 main_v39 (broadcastInDim S1x8192 ![1] bcast_S8192_S1x8192_1 : (⟨S8192, .i32⟩ : BufTy).Contents (Elt F) → (⟨S1x8192, .i32⟩ : BufTy).Contents (Elt F)),
    unary main_v39 main_v40 (broadcastInDim S16x8192 ![0, 1] bcast_S1x8192_S16x8192_0_1 : (⟨S1x8192, .i32⟩ : BufTy).Contents (Elt F) → (⟨S16x8192, .i32⟩ : BufTy).Contents (Elt F)),
    unary main_v4 main_v41 (broadcastInDim S16x8192 ![0, 1] bcast_S16x1_S16x8192_0_1 : (⟨S16x1, .i32⟩ : BufTy).Contents (Elt F) → (⟨S16x8192, .i32⟩ : BufTy).Contents (Elt F)),
    binary main_v40 main_v41 main_v42 (cmpi .slt : (⟨S16x8192, .i32⟩ : BufTy).Contents (Elt F) → (⟨S16x8192, .i32⟩ : BufTy).Contents (Elt F) → (⟨S16x8192, .i1⟩ : BufTy).Contents (Elt F)),
    TRef.ternary (.of main_v42 : TRef sig ⟨S16x8192, .i1⟩) (.of main_v34 : TRef sig ⟨S16x8192, .f32⟩) (.of main_v11 : TRef sig ⟨S16x8192, .f32⟩) main_call3.v0 select,
    TRef.ternary (.of main_v38 : TRef sig ⟨S16x8192, .i1⟩) (.of main_v19 : TRef sig ⟨S16x8192, .f32⟩) (.of main_v43 : TRef sig ⟨S16x8192, .f32⟩) main_call4.v0 select,
    nullary main_c_9 (constantI S_ 32 0#32),
    unary main_c_9 main_v45 (broadcastInDim S16 ![] bcast_S_S16 : (⟨S_, .i32⟩ : BufTy).Contents (Elt F) → (⟨S16, .i32⟩ : BufTy).Contents (Elt F)),
    binary main_arg3 main_v45 main_v46 (cmpi .slt : (⟨S16, .i32⟩ : BufTy).Contents (Elt F) → (⟨S16, .i32⟩ : BufTy).Contents (Elt F) → (⟨S16, .i1⟩ : BufTy).Contents (Elt F)),
    nullary main_c_10 (constantI S_ 32 8192#32),
    unary main_c_10 main_v47 (broadcastInDim S16 ![] bcast_S_S16 : (⟨S_, .i32⟩ : BufTy).Contents (Elt F) → (⟨S16, .i32⟩ : BufTy).Contents (Elt F)),
    binary main_arg3 main_v47 main_v48 (addi : (⟨S16, .i32⟩ : BufTy).Contents (Elt F) → (⟨S16, .i32⟩ : BufTy).Contents (Elt F) → (⟨S16, .i32⟩ : BufTy).Contents (Elt F)),
    ternary main_v46 main_v48 main_arg3 main_v49 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v49 main_v50 (broadcastInDim S16x1 ![0] bcast_S16_S16x1_0 : (⟨S16, .i32⟩ : BufTy).Contents (Elt F) → (⟨S16x1, .i32⟩ : BufTy).Contents (Elt F)),
    ternary main_arg0 main_v50 main_v44 main_v51 ((fun x i u => Host.scatter scatter_S8192x8192_S16x1_S16x8192_1_0_0_1 (fun _ b => b) x i u) : (⟨S8192x8192, .f32⟩ : BufTy).Contents (Elt F) → (⟨S16x1, .i32⟩ : BufTy).Contents (Elt F) → (⟨S16x8192, .f32⟩ : BufTy).Contents (Elt F) → (⟨S8192x8192, .f32⟩ : BufTy).Contents (Elt F)) ]

-- seventy-six binds re-associated: the rewrite under the chain recurses once per statement
set_option maxRecDepth 4096 in
set_option maxHeartbeats 1600000 in
/-- @main is that straight line: its two windows in order, the called functions' definitions unfolded at their
    calls and the call records at their fields; both sides are one chain of steps once sequencing is
    reassociated. -/
theorem main_eq (c : Dev nD) : main (F := F) c = seq ops := by
  simp only [main, main_part0, main_part1, fn_cumsum.body, fn_cumsum_0.body, fn_clip.body, fn_clip_1.body, fn_where.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    nullary_bufs_sub .., nullary_bufs_sub .., unary_bufs_sub .., binary_bufs_sub .., binary_bufs_sub .., unary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., unary_bufs_sub ..,
    unary_bufs_sub .., binary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., unary_bufs_sub ..,
    binary_bufs_sub .., unary_bufs_sub .., unary_bufs_sub .., unary_bufs_sub .., binary_bufs_sub .., ternary_bufs_sub ..,
    ternary_bufs_sub .., nullary_bufs_sub .., unary_bufs_sub .., binary_bufs_sub .., nullary_bufs_sub .., unary_bufs_sub ..,
    binary_bufs_sub .., ternary_bufs_sub .., unary_bufs_sub .., ternary_bufs_sub ..⟩

attribute [local irreducible] Host.reduceWindow Host.gather Host.scatter in
set_option maxRecDepth 8192 in
set_option maxHeartbeats 1600000 in
/-- The fold at the result buffer is `out` by computation: each operation's result at its own buffer is its
    function of what its operand buffers held, at any other buffer what was there; the typed references'
    transports are the identity at these literal references. The window sum, the gathers and the scatter are
    kept folded meanwhile: the equation never looks inside them. -/
theorem out_eq (V : Valuation τ sig (Elt F)) :
    after ops V (main_v51 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- On the device, for any float values, from any memory with zero counters: every weakly fair execution of
    @main terminates with the result buffer at `out` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v51)
        = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v51).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _), (h c main_arg6).trans (arg6_eq _)⟩)
    (run_seq scopedRefs_eq scopedSems_eq defs main (fun _ => ops) main_eq (fun _ => ops_sub) m ρ)

end Cert.ReferenceIdeal.RefRun

end
-- ==== Proof.ScatterFold.lean ====
/-
  jnp's `x.at[idx].set(rows)` on the host, read as the pool after the rows have been written in order.
-/
import proofs.«429800_j60533269069830_1_alg».proof.Proof.Spec

noncomputable section

namespace Cert.PoolRows

open Idealize.ShloMosaic Idealize.ShloMosaic.ValueIdx

/-- A left fold over the positions 0 … N - 1 in order, followed through a family of intermediate states: if the state
    before any step is `inv 0` and step k takes `inv k` to `inv (k + 1)`, the fold ends at `inv N`. -/
theorem foldl_finRange_inv {β : Type} : ∀ (N : ℕ) (step : β → Fin N → β) (x : β) (inv : ℕ → β),
    inv 0 = x → (∀ k (hk : k < N), step (inv k) ⟨k, hk⟩ = inv (k + 1)) →
    (List.finRange N).foldl step x = inv N
  | 0, _, _, _, h0, _ => by simpa using h0.symm
  | n + 1, step, x, inv, h0, hs => by
    rw [List.finRange_succ_last, List.foldl_append, List.foldl_map,
      foldl_finRange_inv n (fun b m => step b m.castSucc) x inv h0 (fun k hk => hs k (Nat.lt_succ_of_lt hk))]
    exact hs n (Nat.lt_succ_self n)

/-- The rows array has 16 * 8192 elements. -/
theorem numel_rows : Rows.numel = 131072 := by
  simp [Shape.numel, Fin.prod_univ_two]

/-- On the pool's row axis the start of update (r, c) is request r's slot word, read signed. -/
theorem start_zero (wf : ScatterDims.WF Pool ReqCol Rows [1] [0] [0] 1) (idx2 : IVec ReqCol 32) (r : Fin 16) (c : Fin 8192) :
    (dims wf).start (ix2 r c) idx2 (0 : Fin 2) = (idx2 (ix2 r (0 : Fin 1))).toInt := by
  have hs : (dims wf).siIdx (ix2 r c) ⟨0, (show 0 < ([0] : List (Fin 2)).length by decide)⟩ = ix2 r (0 : Fin 1) := by
    funext b
    match b with
    | ⟨0, _⟩ => rfl
    | ⟨1, _⟩ => rfl
  unfold ScatterDims.start
  rw [dif_pos (show (0 : Fin 2) ∈ ([0] : List (Fin 2)) by decide)]
  exact congrArg (fun t => (idx2 t).toInt) hs

/-- On the pool's column axis every update starts at 0. -/
theorem start_one (wf : ScatterDims.WF Pool ReqCol Rows [1] [0] [0] 1) (idx2 : IVec ReqCol 32) (r : Fin 16) (c : Fin 8192) :
    (dims wf).start (ix2 r c) idx2 (1 : Fin 2) = 0 := by
  unfold ScatterDims.start
  rw [dif_neg (show (1 : Fin 2) ∉ ([0] : List (Fin 2)) by decide)]

/-- The pool's row axis is an inserted axis: the window coordinate there is 0. -/
theorem window_zero (wf : ScatterDims.WF Pool ReqCol Rows [1] [0] [0] 1) (r : Fin 16) (c : Fin 8192) :
    (dims wf).window (ix2 r c) (0 : Fin 2) = 0 := by
  unfold ScatterDims.window
  rw [dif_neg (show (0 : Fin 2) ∉ Pool.kept [0] by decide)]

/-- On the pool's column axis the window coordinate of update (r, c) is c. -/
theorem window_one (wf : ScatterDims.WF Pool ReqCol Rows [1] [0] [0] 1) (r : Fin 16) (c : Fin 8192) :
    (dims wf).window (ix2 r c) (1 : Fin 2) = c.val := by
  unfold ScatterDims.window
  rw [dif_pos (show (1 : Fin 2) ∈ Pool.kept [0] by decide)]
  rfl

/-- A word read signed that is not negative is the word read unsigned. -/
theorem word_toNat (w : BitVec 32) (hlo : 0 ≤ w.toInt) : (w.toNat : ℤ) = w.toInt := by
  have h := BitVec.toInt_eq_toNat_cond w
  have := w.isLt
  split at h <;> omega

/-- A rank-2 array has axis 0 and axis 1. -/
theorem fin2_cases (a : Fin 2) : a = 0 ∨ a = 1 := by
  revert a; decide

/-- Update (r, c) lands at pool index (slot word of r, c) when the slot word is in range. -/
theorem resultIdx_eq (wf : ScatterDims.WF Pool ReqCol Rows [1] [0] [0] 1) (idx2 : IVec ReqCol 32) (r : Fin 16) (c : Fin 8192)
    (w : BitVec 32) (hw : idx2 (ix2 r (0 : Fin 1)) = w) (hlo : 0 ≤ w.toInt) (hhi : w.toInt < 8192) (hn : w.toNat < 8192) :
    (dims wf).resultIdx? (ix2 r c) idx2 = some (ix2 ⟨w.toNat, hn⟩ c) := by
  have hwn := word_toNat w hlo
  have hc := c.isLt
  have hall : ∀ a, 0 ≤ (dims wf).start (ix2 r c) idx2 a + (dims wf).window (ix2 r c) a ∧
      (dims wf).start (ix2 r c) idx2 a + (dims wf).window (ix2 r c) a < Pool.size a := by
    intro a
    rcases fin2_cases a with rfl | rfl
    · rw [start_zero, window_zero, hw]; show _ ∧ _ < ((8192 : ℕ) : ℤ); omega
    · rw [start_one, window_one]; show _ ∧ _ < ((8192 : ℕ) : ℤ); omega
  unfold ScatterDims.resultIdx?
  rw [dif_pos hall]
  congr 1
  funext a
  rcases fin2_cases a with rfl | rfl
  · apply Fin.ext
    show ((dims wf).start (ix2 r c) idx2 0 + ((dims wf).window (ix2 r c) 0 : ℕ)).toNat = w.toNat
    rw [start_zero, window_zero, hw]; omega
  · apply Fin.ext
    show ((dims wf).start (ix2 r c) idx2 1 + ((dims wf).window (ix2 r c) 1 : ℕ)).toNat = c.val
    rw [start_one, window_one]; omega

/-- A pool index is (a, b) exactly when its coordinates are a and b. -/
theorem pool_idx_eq (i : Pool.Idx) (a b : Fin 8192) : i = ix2 a b ↔ (i 0).val = a.val ∧ (i 1).val = b.val := by
  constructor
  · rintro rfl; exact ⟨rfl, rfl⟩
  · rintro ⟨h0, h1⟩
    funext d
    match d with
    | ⟨0, _⟩ => exact Fin.ext h0
    | ⟨1, _⟩ => exact Fin.ext h1

/-- The position k = r * 8192 + c in row-major order is the update index (r, c). -/
theorem rowMajor_symm_rows (k : ℕ) (hk : k < Rows.numel) (hr : k / 8192 < 16) (hc : k % 8192 < 8192) :
    Rows.rowMajor.symm ⟨k, hk⟩ = ix2 ⟨k / 8192, hr⟩ ⟨k % 8192, hc⟩ := by
  rw [Equiv.symm_apply_eq]
  apply Fin.ext
  rw [Shape.rowMajor_val_two]
  show k = (k / 8192) * 8192 + k % 8192
  omega

/-- The pool after the first k updates in row-major order: the requests before request k / 8192 written whole, request
    k / 8192 written up to (not including) column k % 8192. -/
def upTo {α : Type} (x : Pool.Idx → α) (idx : IVec Req 32) (rows : Rows.Idx → α) (k : ℕ) : Pool.Idx → α := fun i =>
  if (i 0).val = slot idx (k / 8192) ∧ (i 1).val < k % 8192 then rowVal x rows (k / 8192) i
  else applyRows (fun i => (i 0).val) (slot idx) (rowVal x rows) x (k / 8192) i

/-- Before any update the pool is the starting pool. -/
theorem upTo_zero {α : Type} (x : Pool.Idx → α) (idx : IVec Req 32) (rows : Rows.Idx → α) : upTo x idx rows 0 = x := by
  funext i
  simp only [upTo, Nat.zero_div, Nat.zero_mod, Nat.not_lt_zero, and_false, if_false, applyRows_zero]

/-- After all 16 * 8192 updates every request's row is written whole. -/
theorem upTo_last {α : Type} (x : Pool.Idx → α) (idx : IVec Req 32) (rows : Rows.Idx → α) :
    upTo x idx rows 131072 = written x idx rows := by
  funext i
  have e1 : 131072 / 8192 = 16 := by norm_num
  have e2 : 131072 % 8192 = 0 := by norm_num
  unfold upTo written
  rw [e1, e2]
  simp only [Nat.not_lt_zero, and_false, if_false]

/-- One more update: writing update (k / 8192, k % 8192) at its pool index takes the pool after k updates to the pool
    after k + 1. When the column is the last one the request's row is complete, which is the next stage of the
    recursion. -/
theorem upTo_step {α : Type} (x : Pool.Idx → α) (idx : IVec Req 32) (rows : Rows.Idx → α) (k : ℕ)
    (hr : k / 8192 < 16) (hc : k % 8192 < 8192) (hn : (idx (ix1 ⟨k / 8192, hr⟩)).toNat < 8192) (i : Pool.Idx)
    [Decidable (i = ix2 ⟨(idx (ix1 ⟨k / 8192, hr⟩)).toNat, hn⟩ ⟨k % 8192, hc⟩)] :
    (if i = ix2 ⟨(idx (ix1 ⟨k / 8192, hr⟩)).toNat, hn⟩ ⟨k % 8192, hc⟩ then rows (ix2 ⟨k / 8192, hr⟩ ⟨k % 8192, hc⟩)
      else upTo x idx rows k i) = upTo x idx rows (k + 1) i := by
  have hs : slot idx (k / 8192) = (idx (ix1 ⟨k / 8192, hr⟩)).toNat := dif_pos hr
  have hv : rowVal x rows (k / 8192) i = rows (ix2 ⟨k / 8192, hr⟩ (i 1)) := dif_pos hr
  have hi1 : (i 1).val < 8192 := (i 1).isLt
  have hcol : (i 1).val = k % 8192 → rows (ix2 ⟨k / 8192, hr⟩ ⟨k % 8192, hc⟩) = rows (ix2 ⟨k / 8192, hr⟩ (i 1)) :=
    fun h => congrArg (fun t => rows (ix2 ⟨k / 8192, hr⟩ t)) (Fin.ext h.symm)
  by_cases ht : i = ix2 ⟨(idx (ix1 ⟨k / 8192, hr⟩)).toNat, hn⟩ ⟨k % 8192, hc⟩
  · rw [if_pos ht]
    obtain ⟨h0, h1⟩ := (pool_idx_eq _ _ _).1 ht
    have h0' : (i 0).val = slot idx (k / 8192) := h0.trans hs.symm
    have h1' : (i 1).val = k % 8192 := h1
    unfold upTo
    by_cases hlast : k % 8192 + 1 < 8192
    · have e1 : (k + 1) / 8192 = k / 8192 := by omega
      have e2 : (k + 1) % 8192 = k % 8192 + 1 := by omega
      rw [e1, e2, hv, if_pos ⟨h0', by omega⟩]
      exact hcol h1'
    · have e1 : (k + 1) / 8192 = k / 8192 + 1 := by omega
      have e2 : (k + 1) % 8192 = 0 := by omega
      have hz : ¬((i 0).val = slot idx (k / 8192 + 1) ∧ (i 1).val < 0) := fun h => Nat.not_lt_zero _ h.2
      rw [e1, e2, applyRows_succ, hv, if_neg hz, if_pos h0']
      exact hcol h1'
  · rw [if_neg ht]
    have hne : ¬((i 0).val = slot idx (k / 8192) ∧ (i 1).val = k % 8192) :=
      fun h => ht ((pool_idx_eq _ _ _).2 ⟨h.1.trans hs, h.2⟩)
    unfold upTo
    by_cases hlast : k % 8192 + 1 < 8192
    · have e1 : (k + 1) / 8192 = k / 8192 := by omega
      have e2 : (k + 1) % 8192 = k % 8192 + 1 := by omega
      rw [e1, e2]
      split_ifs <;> first | rfl | (exfalso; omega)
    · have e1 : (k + 1) / 8192 = k / 8192 + 1 := by omega
      have e2 : (k + 1) % 8192 = 0 := by omega
      have hz : ¬((i 0).val = slot idx (k / 8192 + 1) ∧ (i 1).val < 0) := fun h => Nat.not_lt_zero _ h.2
      rw [e1, e2, applyRows_succ, if_neg hz]
      split_ifs <;> first | rfl | (exfalso; omega)

/-- The host scatter with the body "take the update" is a left fold over the updates' indices in row-major order: request
    0's row column by column, then request 1's, … Each update (r, c) lands at pool index (idx r, c) when the slot word is
    in range. So the fold is the pool after the sixteen rows have been written in order. -/
theorem scatter_set_eq_written {α : Type} (wf : ScatterDims.WF Pool ReqCol Rows [1] [0] [0] 1)
    (x : Pool.Idx → α) (idx : IVec Req 32) (idx2 : IVec ReqCol 32)
    (h2 : ∀ r : Fin 16, idx2 (ix2 r (0 : Fin 1)) = idx (ix1 r))
    (hlo : ∀ r : Fin 16, 0 ≤ (idx (ix1 r)).toInt) (hhi : ∀ r : Fin 16, (idx (ix1 r)).toInt < 8192)
    (rows : Rows.Idx → α) :
    Host.scatter (dims wf) (fun _ b => b) x idx2 rows = written x idx rows := by
  have hn : ∀ r : Fin 16, (idx (ix1 r)).toNat < 8192 := fun r => by
    have := word_toNat _ (hlo r)
    have := hhi r
    omega
  unfold Host.scatter
  refine (foldl_finRange_inv Rows.numel _ x (upTo x idx rows) (upTo_zero x idx rows) ?_).trans ?_
  · intro k hk
    have hk' : k < 131072 := numel_rows ▸ hk
    have hr : k / 8192 < 16 := by omega
    have hc : k % 8192 < 8192 := by omega
    funext i
    rw [rowMajor_symm_rows k hk hr hc,
      resultIdx_eq wf idx2 ⟨k / 8192, hr⟩ ⟨k % 8192, hc⟩ _ (h2 _) (hlo _) (hhi _) (hn _)]
    exact upTo_step x idx rows k hr hc (hn _) i
  · rw [numel_rows]
    exact upTo_last x idx rows

end Cert.PoolRows

end
-- ==== Proof.RefWritten.lean ====
/-
  The reference's result, read as the pool after the requests' rows have been written in order: the slot column the
  reference scatters at is the requests' slot words themselves once these are not negative.
-/
import proofs.«429800_j60533269069830_1_alg».proof.Proof.RefRun
import proofs.«429800_j60533269069830_1_alg».proof.Proof.ScatterFold
import Idealize.ShloMosaic.Lib.Pipeline.Value

noncomputable section

namespace Cert.RefWritten

open Idealize.ShloMosaic Idealize.ShloMosaic.ValueIdx Cert.ReferenceIdeal

variable {F : FTy → Type} [FloatOps F]

/-- The negative-index wrap on one word: a word that is not negative is not below zero in the signed order, so the
    selection keeps it. -/
theorem keep_of_nonneg (w v : BitVec 32) (hlo : 0 ≤ w.toInt) : Scalar.select (IntOp.cmpi .slt w 0#32) v w = w := by
  have hs : w.slt 0#32 = false := by
    unfold BitVec.slt
    exact decide_eq_false (by rw [BitVec.toInt_zero]; omega)
  have hc : IntOp.cmpi .slt w 0#32 = 0#1 := by
    show BitVec.ofBool (w.slt 0#32) = 0#1
    rw [hs]; rfl
  rw [hc]
  rfl

/-- The slot column at request r is request r's slot word when that word is not negative: the column's entry (r, 0)
    is the wrapped vector's entry r, and the wrap keeps a word that is not negative. -/
theorem slotCol_apply (a3 : IVec S16 32) (r : Fin 16) (hlo : 0 ≤ (a3 (ix1 r)).toInt) :
    RefRun.slotCol a3 (ix2 r (0 : Fin 1)) = a3 (ix1 r) := by
  unfold RefRun.slotCol
  rw [broadcastInDim_apply _ _ _ (ix2 r (0 : Fin 1)) (ix1 r) (fun a => by match a with | ⟨0, _⟩ => rfl)]
  exact keep_of_nonneg _ _ hlo

/-- The reference's result is the pool with the sixteen rows written at the slot words, in request order. -/
theorem out_eq_written (a0 : FVec F Cert.ReferenceIdeal.S8192x8192 .f32) (a1 : FVec F Cert.ReferenceIdeal.S16x4096 .f32) (a2 : FVec F Cert.ReferenceIdeal.S32768 .f32) (a3 a4 a5 a6 : IVec Cert.ReferenceIdeal.S16 32) (hlo : ∀ r : Fin 16, 0 ≤ (a3 (ValueIdx.ix1 r)).toInt) (hhi : ∀ r : Fin 16, (a3 (ValueIdx.ix1 r)).toInt < 8192) : Cert.ReferenceIdeal.RefRun.out a0 a1 a2 a3 a4 a5 a6 = Cert.PoolRows.written a0 a3 (Cert.ReferenceIdeal.RefRun.rows a0 a1 a2 a3 a4 a5 a6) := by
  unfold RefRun.out
  generalize RefRun.rows a0 a1 a2 a3 a4 a5 a6 = R
  exact Cert.PoolRows.scatter_set_eq_written Gen.scatter_S8192x8192_S16x1_S16x8192_1_0_0_1_wf a0 a3 (RefRun.slotCol a3)
    (fun r => slotCol_apply a3 r (hlo r)) hlo hhi R

end Cert.RefWritten

end
-- ==== Proof.RowsAgree.lean ====
/-
  The reference run's rows are the rows the specification names: the same nested array operations applied to the same
  seven arguments, written once with one set of names for the shapes and once with another.
-/
import proofs.«429800_j60533269069830_1_alg».proof.Proof.RefRun
import proofs.«429800_j60533269069830_1_alg».proof.Proof.RowsSpec

noncomputable section

namespace Cert.RowsAgree

open Idealize.ShloMosaic

variable {F : FTy → Type} [FloatOps F]

/-- The reference run's [16, 8192] array of rows is `rowsR` of the same seven arguments: the two terms apply the same
    operations with the same literals in the same order; they differ only in the names given to the shapes and in the
    evidence of the shape relations they carry, and any two proofs of one proposition are equal. -/
theorem ref_rows_eq (a0 : FVec F Cert.ReferenceIdeal.S8192x8192 .f32) (a1 : FVec F Cert.ReferenceIdeal.S16x4096 .f32)
    (a2 : FVec F Cert.ReferenceIdeal.S32768 .f32) (a3 a4 a5 a6 : IVec Cert.ReferenceIdeal.S16 32) :
    Cert.ReferenceIdeal.RefRun.rows a0 a1 a2 a3 a4 a5 a6 = Cert.RowsSpec.rowsR a0 a1 a2 a3 a4 a5 a6 := rfl

end Cert.RowsAgree

end
-- ==== Proof.lean ====
/-
  The certificate. A token pool of 8192 rows; sixteen requests, each naming a pool row (its slot) and bringing a row of
  8192 values computed on the host from the prefix table, the cache-location array and the pool's own old row; the result
  is the pool with each request's row written at its slot, in request order. The reference writes them with one host
  scatter, the kernel with a pipeline whose output block index is read from the slot table, one pool row per grid point.

  Under the precondition (floats finite, every slot a pool row, every prefix length at most the prefix table's width):
  the two kernel programs run because every output block lies inside the pool; the reference runs as any straight line
  of host operations does; nothing was rewritten by the idealization; and both idealized programs end with the same
  array: the pool after the sixteen rows have been written in order, a later request winning a shared slot on both sides,
  the two programs' rows being equal because they differ only in prefix values at columns past every prefix length.
-/
import proofs.«429800_j60533269069830_1_alg».proof.Defs
import proofs.«429800_j60533269069830_1_alg».proof.Proof.Gen.Kernel
import proofs.«429800_j60533269069830_1_alg».proof.Proof.Gen.Kernel.Frame
import proofs.«429800_j60533269069830_1_alg».proof.Proof.Gen.KernelIdeal
import proofs.«429800_j60533269069830_1_alg».proof.Proof.Gen.KernelIdeal.Frame
import proofs.«429800_j60533269069830_1_alg».proof.Proof.Gen.ReferenceIdeal
import proofs.«429800_j60533269069830_1_alg».proof.Proof.Gen.Pre_finite_inputs
import proofs.«429800_j60533269069830_1_alg».proof.Proof.OkKernel
import proofs.«429800_j60533269069830_1_alg».proof.Proof.OkKernelIdeal
import proofs.«429800_j60533269069830_1_alg».proof.Proof.PreFacts
import proofs.«429800_j60533269069830_1_alg».proof.Proof.KGlue
import proofs.«429800_j60533269069830_1_alg».proof.Proof.RefRun
import proofs.«429800_j60533269069830_1_alg».proof.Proof.RefWritten
import proofs.«429800_j60533269069830_1_alg».proof.Proof.RowsAgree
import proofs.«429800_j60533269069830_1_alg».proof.Proof.RowsSpec
import Idealize.ShloMosaic.Adequacy
import Idealize.ShloMosaic.Init

noncomputable section

namespace Cert.Proof

open Idealize.ShloMosaic Idealize.ShloMosaic.TcCoe Idealize.SL.Sem

/-- The word-level kernel runs: the slot table keeps every output block inside the pool. -/
theorem frame_kernel : Cert.frame_Kernel := fun m ρ h => Cert.Kernel.Gen.frame m ρ (Cert.Kernel.OkOfPre.ok_of_pre m h)

/-- The idealized kernel runs, for the same reason. -/
theorem frame_kernelIdeal : Cert.frame_KernelIdeal := fun m ρ h =>
  Cert.KernelIdeal.Gen.frame m ρ (Cert.KernelIdeal.OkOfPre.ok_of_pre m h)

/-- The reference runs: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both idealized programs end at the pool with the rows written in order at the slots. -/
theorem algebraic : Cert.algebraic_KernelIdeal_ReferenceIdeal := by
  intro m ρ m' ρ' hpre hagree
  have hO := Cert.KernelIdeal.OkOfPre.ok_of_pre m hpre
  have hints := fun (c : Dev Cert.KernelIdeal.nD) (r : Fin 16) => Cert.PreFacts.ints_of_pre (F := Ideal) _ _ _ _ _ _ _ (hpre c) r
  refine ⟨_, Cert.KernelIdeal.KVal.run_written (F := Ideal) m ρ hO, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6⟩ := hagree c
  rw [e0, e1, e2, e3, e4, e5, e6]
  rw [Cert.RefWritten.out_eq_written _ _ _ _ _ _ _ (fun r => (hints c r).1) (fun r => (hints c r).2.1),
    Cert.RowsAgree.ref_rows_eq]
  exact congrArg _ (Cert.RowsSpec.rows_eq _ _ _ _ _ _ _ (fun r => (hints c r).2.2)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
